-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x32 : Shape := ⟨2, ![500000, 32]⟩
abbrev S500000 : Shape := ⟨1, ![500000]⟩
abbrev S160x160 : Shape := ⟨2, ![160, 160]⟩
abbrev S160 : Shape := ⟨1, ![160]⟩
abbrev S128x160 : Shape := ⟨2, ![128, 160]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S160 .f32) (main_arg7 : FVec F S160 .f32) (main_arg8 : FVec F S128x160 .f32) (main_arg9 : FVec F S128 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160 .f32 := Host.absf main_arg6
  let main_cst_6 : FVec F S_ .f32 := constant S_ .f32 0x7F800000#32
  let main_v20 : FVec F S160 .f32 := broadcastInDim S160 ![] bcast_S_S160 main_cst_6
  let main_v21 : IVec S160 1 := cmpf .olt main_v19 main_v20
  let main_c_7 : IVec S_ 1 := constantI S_ 1 1#1
  let main_v22 : IVec S_ 1 := (fun x v => Host.reduce IntOp.andi x v reducesTo_S160_S_d0 h_S_) main_v21 main_c_7
  let main_v23 : IVec S_ 1 := andi main_v18 main_v22
  let main_v24 : FVec F S160 .f32 := Host.absf main_arg7
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S128x160 .f32 := Host.absf main_arg8
  let main_cst_10 : FVec F S_ .f32 := constant S_ .f32 0x7F800000#32
  let main_v30 : FVec F S128x160 .f32 := broadcastInDim S128x160 ![] bcast_S_S128x160 main_cst_10
  let main_v31 : IVec S128x160 1 := cmpf .olt main_v29 main_v30
  let main_c_11 : IVec S_ 1 := constantI S_ 1 1#1
  let main_v32 : IVec S_ 1 := (fun x v => Host.reduce IntOp.andi x v reducesTo_S128x160_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : FVec F S500000x32 .f32) (main_arg2 : IVec S500000 32) (main_arg3 : IVec S500000 32) (main_arg4 : FVec F S160x160 .f32) (main_arg5 : FVec F S160 .f32) (main_arg6 : FVec F S160 .f32) (main_arg7 : FVec F S160 .f32) (main_arg8 : FVec F S128x160 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x32 .f32 := Host.absf main_arg1
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S160x160 .f32 := Host.absf main_arg4
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg5
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg6 main_arg7 main_arg8 main_arg9 main_v13 main_v16
-- ==== Kernel.lean ====
abbrev S50000x128 : Shape := ⟨2, ![50000, 128]⟩
abbrev S500000x32 : Shape := ⟨2, ![500000, 32]⟩
abbrev S500000 : Shape := ⟨1, ![500000]⟩
abbrev S160x160 : Shape := ⟨2, ![160, 160]⟩
abbrev S160 : Shape := ⟨1, ![160]⟩
abbrev S128x160 : Shape := ⟨2, ![128, 160]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S500000x160 : Shape := ⟨2, ![500000, 160]⟩
abbrev S160x128 : Shape := ⟨2, ![160, 128]⟩
abbrev S1x160 : Shape := ⟨2, ![1, 160]⟩
abbrev S1x128 : Shape := ⟨2, ![1, 128]⟩
abbrev S10000x160 : Shape := ⟨2, ![10000, 160]⟩
abbrev S10000x128 : Shape := ⟨2, ![10000, 128]⟩

abbrev nBuf : Space → Nat
  | .hbm => 50
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S500000x32, .f32⟩
  | .hbm, ⟨2, _⟩ => ⟨S500000, .i32⟩
  | .hbm, ⟨3, _⟩ => ⟨S500000, .i32⟩
  | .hbm, ⟨4, _⟩ => ⟨S160x160, .f32⟩
  | .hbm, ⟨5, _⟩ => ⟨S160, .f32⟩
  | .hbm, ⟨6, _⟩ => ⟨S160, .f32⟩
  | .hbm, ⟨7, _⟩ => ⟨S160, .f32⟩
  | .hbm, ⟨8, _⟩ => ⟨S128x160, .f32⟩
  | .hbm, ⟨9, _⟩ => ⟨S128, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S500000x160, .f32⟩
  | .hbm, ⟨20, _⟩ => ⟨S500000x160, .bf16⟩
  | .hbm, ⟨21, _⟩ => ⟨S160x160, .f32⟩
  | .hbm, ⟨22, _⟩ => ⟨S160x160, .bf16⟩
  | .hbm, ⟨23, _⟩ => ⟨S160x128, .f32⟩
  | .hbm, ⟨24, _⟩ => ⟨S160x128, .bf16⟩
  | .hbm, ⟨25, _⟩ => ⟨S1x160, .f32⟩
  | .hbm, ⟨26, _⟩ => ⟨S1x128, .f32⟩
  | .hbm, ⟨27, _⟩ => ⟨S1x160, .f32⟩
  | .hbm, ⟨28, _⟩ => ⟨S1x160, .f32⟩
  | .hbm, ⟨29, _⟩ => ⟨S1x160, .f32⟩
  | .hbm, ⟨30, _⟩ => ⟨S1x160, .f32⟩
  | .hbm, ⟨31, _⟩ => ⟨S_, .f32⟩
  | .hbm, ⟨32, _⟩ => ⟨S1x160, .f32⟩
  | .hbm, ⟨33, _⟩ => ⟨S1x160, .f32⟩
  | .hbm, ⟨34, _⟩ => ⟨S_, .f32⟩
  | .hbm, ⟨35, _⟩ => ⟨S1x160, .f32⟩
  | .hbm, ⟨36, _⟩ => ⟨S1x160, .f32⟩
  | .hbm, ⟨37, _⟩ => ⟨S1x160, .f32⟩
  | .hbm, ⟨38, _⟩ => ⟨S1x160, .f32⟩
  | .hbm, ⟨39, _⟩ => ⟨S500000x128, .f32⟩
  | .hbm, ⟨40, _⟩ => ⟨S_, .f32⟩
  | .hbm, ⟨41, _⟩ => ⟨S50000x128, .f32⟩
  | .hbm, ⟨42, _⟩ => ⟨S500000x1, .i32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S500000x32, .f32⟩
  | .hbm, ⟨49, _⟩ => ⟨S500000x32, .f32⟩
  | .local _ .vmem, ⟨0, _⟩ => ⟨S10000x160, .bf16⟩
  | .local _ .vmem, ⟨1, _⟩ => ⟨S10000x160, .bf16⟩
  | .local _ .vmem, ⟨2, _⟩ => ⟨S160x160, .bf16⟩
  | .local _ .vmem, ⟨3, _⟩ => ⟨S1x160, .f32⟩
  | .local _ .vmem, ⟨4, _⟩ => ⟨S1x160, .f32⟩
  | .local _ .vmem, ⟨5, _⟩ => ⟨S1x160, .f32⟩
  | .local _ .vmem, ⟨6, _⟩ => ⟨S10000x160, .bf16⟩
  | .local _ .vmem, ⟨7, _⟩ => ⟨S10000x160, .bf16⟩
  | .local _ .vmem, ⟨8, _⟩ => ⟨S1x160, .f32⟩
  | .local _ .vmem, ⟨9, _⟩ => ⟨S1x160, .f32⟩
  | .local _ .vmem, ⟨10, _⟩ => ⟨S1x160, .f32⟩
  | .local _ .vmem, ⟨11, _⟩ => ⟨S1x160, .f32⟩
  | .local _ .vmem, ⟨12, _⟩ => ⟨S160x160, .bf16⟩
  | .local _ .vmem, ⟨13, _⟩ => ⟨S1x160, .f32⟩
  | .local _ .vmem, ⟨14, _⟩ => ⟨S160x128, .bf16⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x160 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S160x160 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x160 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S160x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x32_S500000x160_d1 : Shape.Concatenates [S500000x128, S500000x32] S500000x160 1
  bitsLt_bf16_f32 : FTy.bits .bf16 < FTy.bits .f32
  transposes_S160x160_S160x160_1_0 : S160x160.Transposes [1, 0] S160x160
  transposes_S128x160_S160x128_1_0 : S128x160.Transposes [1, 0] S160x128
  shapeCasts_S160_S1x160 : S160.ShapeCasts S1x160
  shapeCasts_S128_S1x128 : S128.ShapeCasts S1x128
  inb_S1x160_S1x160_0_0 : ∀ a, (![0, 0] : Fin 2 → Nat) a + S1x160.size a ≤ S1x160.size a
  h_S1x160 : 0 < S1x160.numel
  inb_S10000x160_S10000x160_0_0 : ∀ a, (![0, 0] : Fin 2 → Nat) a + S10000x160.size a ≤ S10000x160.size a
  h_S10000x160 : 0 < S10000x160.numel
  shapeCasts_S10000x160_S10000x160 : S10000x160.ShapeCasts S10000x160
  inb_S160x160_S160x160_0_0 : ∀ a, (![0, 0] : Fin 2 → Nat) a + S160x160.size a ≤ S160x160.size a
  h_S160x160 : 0 < S160x160.numel
  shapeCasts_S160x160_S160x160 : S160x160.ShapeCasts S160x160
  shapeCasts_S1x160_S1x160 : S1x160.ShapeCasts S1x160
  broadcasts_S1x160_S10000x160 : S1x160.Broadcasts S10000x160
  reduces_S10000x160_S160 : S10000x160.Reduces [0] S160
  bcast_S_S1x160 : S_.BroadcastsInDim S1x160 (![] : Fin 0 → Fin S1x160.rank)
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  bcast_S_S500000x32 : S_.BroadcastsInDim S500000x32 (![] : Fin 0 → Fin S500000x32.rank)
  gather_S50000x128_S500000x1_S500000x128_1_0_n_n_0_1_1128_wf : GatherDims.WF S50000x128 S500000x1 S500000x128 [1] [0] [] [0] [] 1 ![1, 128]
  dot_S10000x160_S160x160_S10000x160_1_0_0_1_n_n_wf : DotDims.WF S10000x160 S160x160 S10000x160 [1] [0] [0] [1] [] []
  dot_S10000x160_S160x128_S10000x128_1_0_0_1_n_n_wf : DotDims.WF S10000x160 S160x128 S10000x128 [1] [0] [0] [1] [] []
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x160.size a ≤ S500000x160.size a
  hwx0_0 : ∀ i : grid0.Coords, EltTy.bits .bf16 = 32 ∨ (Rect.block (s := S500000x160) S10000x160.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x160.size a ≤ S160x160.size a
  hwx0_1 : ∀ i : grid0.Coords, EltTy.bits .bf16 = 32 ∨ (Rect.block (s := S160x160) S160x160.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x160.size a ≤ S1x160.size a
  hwx0_3 : ∀ i : grid0.Coords, EltTy.bits .f32 = 32 ∨ (Rect.block (s := S1x160) S1x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x160.size a ≤ S500000x160.size a
  hwx1_0 : ∀ i : grid1.Coords, EltTy.bits .bf16 = 32 ∨ (Rect.block (s := S500000x160) S10000x160.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x160.size a ≤ S1x160.size a
  hwx1_1 : ∀ i : grid1.Coords, EltTy.bits .f32 = 32 ∨ (Rect.block (s := S1x160) S1x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x160.size a ≤ S1x160.size a
  hwx1_3 : ∀ i : grid1.Coords, EltTy.bits .f32 = 32 ∨ (Rect.block (s := S1x160) S1x160.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x160.size a ≤ S1x160.size a
  hwx1_4 : ∀ i : grid1.Coords, EltTy.bits .f32 = 32 ∨ (Rect.block (s := S1x160) S1x160.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S160x160.size a ≤ S160x160.size a
  hwx1_5 : ∀ i : grid1.Coords, EltTy.bits .bf16 = 32 ∨ (Rect.block (s := S160x160) S160x160.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x160.size a ≤ S1x160.size a
  hwx1_6 : ∀ i : grid1.Coords, EltTy.bits .f32 = 32 ∨ (Rect.block (s := S1x160) S1x160.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S160x128.size a ≤ S160x128.size a
  hwx1_7 : ∀ i : grid1.Coords, EltTy.bits .bf16 = 32 ∨ (Rect.block (s := S160x128) S160x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S500000x128.size a
  hwx1_9 : ∀ i : grid1.Coords, EltTy.bits .f32 = 32 ∨ (Rect.block (s := S500000x128) S10000x128.size (cc1_transform_9 i) (hinb1_9 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S10000x160_S160x160_S10000x160_1_0_0_1_n_n : DotDims S10000x160 S160x160 S10000x160 where
  lhsContracting := [1]
  rhsContracting := [0]
  lhsNonContracting := [0]
  rhsNonContracting := [1]
  lhsBatch := []
  rhsBatch := []
  wf := dot_S10000x160_S160x160_S10000x160_1_0_0_1_n_n_wf
def dot_S10000x160_S160x128_S10000x128_1_0_0_1_n_n : DotDims S10000x160 S160x128 S10000x128 where
  lhsContracting := [1]
  rhsContracting := [0]
  lhsNonContracting := [0]
  rhsNonContracting := [1]
  lhsBatch := []
  rhsBatch := []
  wf := dot_S10000x160_S160x128_S10000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v8) S10000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S160x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S1x160.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S1x160.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S10000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x160.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S160x160.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x160.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S160x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S10000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000x32 : Shape := ⟨2, ![500000, 32]⟩
abbrev S500000 : Shape := ⟨1, ![500000]⟩
abbrev S160x160 : Shape := ⟨2, ![160, 160]⟩
abbrev S160 : Shape := ⟨1, ![160]⟩
abbrev S128x160 : Shape := ⟨2, ![128, 160]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S500000x160 : Shape := ⟨2, ![500000, 160]⟩
abbrev S1x160 : Shape := ⟨2, ![1, 160]⟩
abbrev S160x128 : Shape := ⟨2, ![160, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x32, .f32⟩
  | .hbm, ⟨2, _⟩ => ⟨S500000, .i32⟩
  | .hbm, ⟨3, _⟩ => ⟨S500000, .i32⟩
  | .hbm, ⟨4, _⟩ => ⟨S160x160, .f32⟩
  | .hbm, ⟨5, _⟩ => ⟨S160, .f32⟩
  | .hbm, ⟨6, _⟩ => ⟨S160, .f32⟩
  | .hbm, ⟨7, _⟩ => ⟨S160, .f32⟩
  | .hbm, ⟨8, _⟩ => ⟨S128x160, .f32⟩
  | .hbm, ⟨9, _⟩ => ⟨S128, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S500000x160, .f32⟩
  | .hbm, ⟨20, _⟩ => ⟨S160x160, .f32⟩
  | .hbm, ⟨21, _⟩ => ⟨S500000x160, .f32⟩
  | .hbm, ⟨22, _⟩ => ⟨S1x160, .f32⟩
  | .hbm, ⟨23, _⟩ => ⟨S500000x160, .f32⟩
  | .hbm, ⟨24, _⟩ => ⟨S500000x160, .f32⟩
  | .hbm, ⟨25, _⟩ => ⟨S_, .f32⟩
  | .hbm, ⟨26, _⟩ => ⟨S160, .f32⟩
  | .hbm, ⟨27, _⟩ => ⟨S_, .f32⟩
  | .hbm, ⟨28, _⟩ => ⟨S160, .f32⟩
  | .hbm, ⟨29, _⟩ => ⟨S160, .f32⟩
  | .hbm, ⟨30, _⟩ => ⟨S_, .i32⟩
  | .hbm, ⟨31, _⟩ => ⟨S_, .f32⟩
  | .hbm, ⟨32, _⟩ => ⟨S160, .f32⟩
  | .hbm, ⟨33, _⟩ => ⟨S1x160, .f32⟩
  | .hbm, ⟨34, _⟩ => ⟨S_, .f32⟩
  | .hbm, ⟨35, _⟩ => ⟨S1x160, .f32⟩
  | .hbm, ⟨36, _⟩ => ⟨S1x160, .f32⟩
  | .hbm, ⟨37, _⟩ => ⟨S500000x160, .f32⟩
  | .hbm, ⟨38, _⟩ => ⟨S500000x160, .f32⟩
  | .hbm, ⟨39, _⟩ => ⟨S500000x160, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S160, .f32⟩
  | .hbm, ⟨45, _⟩ => ⟨S160, .f32⟩
  | .hbm, ⟨46, _⟩ => ⟨S160, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S160, .f32⟩
  | .hbm, ⟨52, _⟩ => ⟨S160, .f32⟩
  | .hbm, ⟨53, _⟩ => ⟨S1x160, .f32⟩
  | .hbm, ⟨54, _⟩ => ⟨S500000x160, .f32⟩
  | .hbm, ⟨55, _⟩ => ⟨S500000x160, .f32⟩
  | .hbm, ⟨56, _⟩ => ⟨S_, .f32⟩
  | .hbm, ⟨57, _⟩ => ⟨S160, .f32⟩
  | .hbm, ⟨58, _⟩ => ⟨S160, .f32⟩
  | .hbm, ⟨59, _⟩ => ⟨S160, .f32⟩
  | .hbm, ⟨60, _⟩ => ⟨S1x160, .f32⟩
  | .hbm, ⟨61, _⟩ => ⟨S500000x160, .f32⟩
  | .hbm, ⟨62, _⟩ => ⟨S500000x160, .f32⟩
  | .hbm, ⟨63, _⟩ => ⟨S1x160, .f32⟩
  | .hbm, ⟨64, _⟩ => ⟨S500000x160, .f32⟩
  | .hbm, ⟨65, _⟩ => ⟨S500000x160, .f32⟩
  | .hbm, ⟨66, _⟩ => ⟨S1x160, .f32⟩
  | .hbm, ⟨67, _⟩ => ⟨S500000x160, .f32⟩
  | .hbm, ⟨68, _⟩ => ⟨S500000x160, .f32⟩
  | .hbm, ⟨69, _⟩ => ⟨S_, .f32⟩
  | .hbm, ⟨70, _⟩ => ⟨S500000x160, .f32⟩
  | .hbm, ⟨71, _⟩ => ⟨S500000x160, .f32⟩
  | .hbm, ⟨72, _⟩ => ⟨S160x128, .f32⟩
  | .hbm, ⟨73, _⟩ => ⟨S500000x128, .f32⟩
  | .hbm, ⟨74, _⟩ => ⟨S1x128, .f32⟩
  | .hbm, ⟨75, _⟩ => ⟨S500000x128, .f32⟩
  | .hbm, ⟨76, _⟩ => ⟨S500000x128, .f32⟩
  | .hbm, ⟨77, _⟩ => ⟨S_, .f32⟩
  | .hbm, ⟨78, _⟩ => ⟨S50000x128, .f32⟩
  | .hbm, ⟨79, _⟩ => ⟨S500000x1, .i32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S500000x32, .f32⟩
  | .hbm, ⟨86, _⟩ => ⟨S500000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_call1_cst : Ref sig .tc := ⟨.hbm, 69, rfl⟩
abbrev main_call1_v0 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call2_cst : Ref sig .tc := ⟨.hbm, 81, rfl⟩
abbrev main_call2_v0 : Ref sig .tc := ⟨.hbm, 82, rfl⟩
abbrev main_v41 : Ref sig .tc := ⟨.hbm, 83, rfl⟩
abbrev main_call3_cst : Ref sig .tc := ⟨.hbm, 84, rfl⟩
abbrev main_call3_v0 : Ref sig .tc := ⟨.hbm, 85, rfl⟩
abbrev main_v42 : Ref sig .tc := ⟨.hbm, 86, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x32_S500000x160_d1 : Shape.Concatenates [S500000x128, S500000x32] S500000x160 1
  transposes_S160x160_S160x160_1_0 : S160x160.Transposes [1, 0] S160x160
  bcast_S160_S1x160_1 : S160.BroadcastsInDim S1x160 (![1] : Fin 1 → Fin S1x160.rank)
  bcast_S1x160_S500000x160_0_1 : S1x160.BroadcastsInDim S500000x160 (![0, 1] : Fin 2 → Fin S500000x160.rank)
  reducesTo_S500000x160_S160_d0 : S500000x160.ReducesTo [0] S160
  h_S_ : 0 < S_.numel
  bcast_S_S160 : S_.BroadcastsInDim S160 (![] : Fin 0 → Fin S160.rank)
  bcast_S_S1x160 : S_.BroadcastsInDim S1x160 (![] : Fin 0 → Fin S1x160.rank)
  bcast_S_S500000x160 : S_.BroadcastsInDim S500000x160 (![] : Fin 0 → Fin S500000x160.rank)
  transposes_S128x160_S160x128_1_0 : S128x160.Transposes [1, 0] S160x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S50000x128 : S_.BroadcastsInDim S50000x128 (![] : Fin 0 → Fin S50000x128.rank)
  bcast_S_S500000x32 : S_.BroadcastsInDim S500000x32 (![] : Fin 0 → Fin S500000x32.rank)
  gather_S50000x128_S500000x1_S500000x128_1_0_n_n_0_1_1128_wf : GatherDims.WF S50000x128 S500000x1 S500000x128 [1] [0] [] [0] [] 1 ![1, 128]
  dot_S500000x160_S160x160_S500000x160_1_0_0_1_n_n_wf : DotDims.WF S500000x160 S160x160 S500000x160 [1] [0] [0] [1] [] []
  dot_S500000x160_S160x128_S500000x128_1_0_0_1_n_n_wf : DotDims.WF S500000x160 S160x128 S500000x128 [1] [0] [0] [1] [] []
  scatter_S50000x128_S500000x1_S500000x128_1_0_0_1_wf : ScatterDims.WF S50000x128 S500000x1 S500000x128 [1] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x160_S160x160_S500000x160_1_0_0_1_n_n : DotDims S500000x160 S160x160 S500000x160 where
  lhsContracting := [1]
  rhsContracting := [0]
  lhsNonContracting := [0]
  rhsNonContracting := [1]
  lhsBatch := []
  rhsBatch := []
  wf := dot_S500000x160_S160x160_S500000x160_1_0_0_1_n_n_wf
def dot_S500000x160_S160x128_S500000x128_1_0_0_1_n_n : DotDims S500000x160 S160x128 S500000x128 where
  lhsContracting := [1]
  rhsContracting := [0]
  lhsNonContracting := [0]
  rhsNonContracting := [1]
  lhsBatch := []
  rhsBatch := []
  wf := dot_S500000x160_S160x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.Spec.lean ====
/-
  One round of message passing with a batch-normalised two-layer perceptron, written row by row over the extended reals.

  An edge's input row is a node row followed by the edge's own features.  The first affine layer gives, for edge r and
  hidden column j, x(r, j) = ∑ₖ m(r, k) · w₁(k, j) + b₁(j).  Each hidden column is normalised with the statistics of that
  column over ALL edges: its mean μ(j) = (∑ᵣ x(r, j)) / E and its variance, then scaled, shifted, cut off below at zero,
  and sent through the second affine layer.

  The variance is spelt in two ways.  One program accumulates the two moments ∑ᵣ x and ∑ᵣ x² and forms
  (∑ᵣ x²) / E − μ²; the other subtracts the mean first and forms (∑ᵣ (x − μ)²) / E.  For real (finite) entries these are
  the same number: expanding the square, ∑ᵣ (x − μ)² = ∑ᵣ x² − 2 μ ∑ᵣ x + E μ², and ∑ᵣ x = E μ.  At an infinite entry
  the two spellings differ (the extended reals do not distribute there), which is why the entries are asked to be real.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.GinSpec

/-! ## Arrays read at coordinates -/

/-- A two-axis array as a function of its row and column. -/
def rd2 {a b : ℕ} (x : (⟨2, ![a, b]⟩ : Shape).Idx → EReal) : Fin a → Fin b → EReal := fun i j => x (ix2 i j)

/-- The one row of a [1, b] array as a function of the column. -/
def rdRow {b : ℕ} (x : (⟨2, ![1, b]⟩ : Shape).Idx → EReal) : Fin b → EReal := fun j => x (ix2 (0 : Fin 1) j)

/-- A one-axis array as a function of its coordinate. -/
def rd1 {b : ℕ} (x : (⟨1, ![b]⟩ : Shape).Idx → EReal) : Fin b → EReal := fun j => x (ix1 j)

/-- The transposed reading of a two-axis array: (i, j) ↦ x(j, i). -/
def rd2T {a b : ℕ} (x : (⟨2, ![a, b]⟩ : Shape).Idx → EReal) : Fin b → Fin a → EReal := fun i j => x (ix2 j i)

/-! ## The layers -/

/-- An affine layer on every row: entry (r, n) is ∑ₖ x(r, k) · w(k, n) + b(n). -/
def lin {R K N : ℕ} (x : Fin R → Fin K → EReal) (w : Fin K → Fin N → EReal) (b : Fin N → EReal) :
    Fin R → Fin N → EReal :=
  fun r n => (∑ k : Fin K, x r k * w k n) + b n

/-- The number of edges, 500000, as the float the programs divide by. -/
def nE : EReal := Ideal.ofBits .f32 0x48F42400#32

/-- The normalisation's small constant (the float nearest to 1e-5). -/
def eps : EReal := Ideal.ofBits .f32 0x3727C5AC#32

/-- The sum of a column. -/
def colSum {N : ℕ} (x : Fin 500000 → Fin N → EReal) : Fin N → EReal := fun j => ∑ r : Fin 500000, x r j

/-- The sum of the squares of a column. -/
def colSumSq {N : ℕ} (x : Fin 500000 → Fin N → EReal) : Fin N → EReal := fun j => ∑ r : Fin 500000, x r j * x r j

/-- The mean of a column. -/
def mean {N : ℕ} (x : Fin 500000 → Fin N → EReal) : Fin N → EReal := fun j => Ideal.div (colSum x j) nE

/-- The variance from the two moments: (∑ x²) / E − μ². -/
def varMoment {N : ℕ} (x : Fin 500000 → Fin N → EReal) : Fin N → EReal :=
  fun j => Ideal.div (colSumSq x j) nE - mean x j * mean x j

/-- The variance from the centred entries: (∑ (x − μ)²) / E. -/
def varCentred {N : ℕ} (x : Fin 500000 → Fin N → EReal) : Fin N → EReal :=
  fun j => Ideal.div (∑ r : Fin 500000, (x r j - mean x j) * (x r j - mean x j)) nE

/-- Normalise with given statistics, scale, shift, and cut off below at zero. -/
def normAct {R N : ℕ} (x : Fin R → Fin N → EReal) (mu var gamma beta : Fin N → EReal) : Fin R → Fin N → EReal :=
  fun r j => max ((x r j - mu j) * Ideal.rsqrt (var j + eps) * gamma j + beta j) 0

/-- The per-edge message with the variance taken from the moments. -/
def msgMoment (m : Fin 500000 → Fin 160 → EReal) (w1 : Fin 160 → Fin 160 → EReal) (b1 gamma beta : Fin 160 → EReal)
    (w2 : Fin 160 → Fin 128 → EReal) (b2 : Fin 128 → EReal) : Fin 500000 → Fin 128 → EReal :=
  lin (normAct (lin m w1 b1) (mean (lin m w1 b1)) (varMoment (lin m w1 b1)) gamma beta) w2 b2

/-- The per-edge message with the variance taken from the centred entries. -/
def msgCentred (m : Fin 500000 → Fin 160 → EReal) (w1 : Fin 160 → Fin 160 → EReal) (b1 gamma beta : Fin 160 → EReal)
    (w2 : Fin 160 → Fin 128 → EReal) (b2 : Fin 128 → EReal) : Fin 500000 → Fin 128 → EReal :=
  lin (normAct (lin m w1 b1) (mean (lin m w1 b1)) (varCentred (lin m w1 b1)) gamma beta) w2 b2

/-- An extended real that is a real number. -/
def IsReal (a : EReal) : Prop := ∃ v : ℝ, a = (v : EReal)

end Cert.GinSpec

end
-- ==== Proof.KTerms.lean ====
/-
  The kernel program's host-side values as functions of its argument arrays: the edge rows (the gathered node row followed
  by the edge's own features, as the two regions read them), and the aggregation that follows the second region (the
  messages summed into their destination rows, then cut off below at zero).
-/
import proofs.«158507_j24361054502956_1_alg».proof.Proof.Gen.KernelIdeal

noncomputable section

open Idealize.ShloMosaic

namespace Cert.KernelIdeal.Terms

open Cert.KernelIdeal Cert.KernelIdeal.Gen

variable {F : FTy → Type} [FloatOps F]

/-- The scalar zero. -/
abbrev zeroS : (⟨S_, .f32⟩ : BufTy).Contents (Elt F) := constant S_ .f32 0x00000000#32

/-- Each edge's source index, a negative one wrapped once by the number of nodes, as a [500000, 1] index array. -/
def wrapped (src : (⟨S500000, .i32⟩ : BufTy).Contents (Elt F)) : (⟨S500000x1, .i32⟩ : BufTy).Contents (Elt F) :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 50000#32))) src)

/-- The edge rows: the source node's row followed by the edge's own features. -/
def edgeRows (h : (⟨S50000x128, .f32⟩ : BufTy).Contents (Elt F)) (e : (⟨S500000x32, .f32⟩ : BufTy).Contents (Elt F))
    (src : (⟨S500000, .i32⟩ : BufTy).Contents (Elt F)) : (⟨S500000x160, .f32⟩ : BufTy).Contents (Elt F) :=
  concatenate S500000x160 1
    [⟨S500000x128, Host.gather gather_S50000x128_S500000x1_S500000x128_1_0_n_n_0_1_1128 h (wrapped src)⟩, ⟨S500000x32, e⟩]
    concatenates_S500000x128_S500000x32_S500000x160_d1

/-- The messages summed into their destination rows, then cut off below at zero. -/
def aggregate (dst : (⟨S500000, .i32⟩ : BufTy).Contents (Elt F)) (he : (⟨S500000x128, .f32⟩ : BufTy).Contents (Elt F)) :
    (⟨S50000x128, .f32⟩ : BufTy).Contents (Elt F) :=
  maximumf (Host.scatterAdd scatter_S50000x128_S500000x1_S500000x128_1_0_0_1
      (broadcastInDim S50000x128 ![] bcast_S_S50000x128 zeroS) (broadcastInDim S500000x1 ![0] bcast_S500000_S500000x1_0 dst) he)
    (broadcastInDim S50000x128 ![] bcast_S_S50000x128 zeroS)

/-- The edge features cut off below at zero. -/
def reluEdges (e : (⟨S500000x32, .f32⟩ : BufTy).Contents (Elt F)) : (⟨S500000x32, .f32⟩ : BufTy).Contents (Elt F) :=
  maximumf e (broadcastInDim S500000x32 ![] bcast_S_S500000x32 zeroS)

end Cert.KernelIdeal.Terms

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibConcatRows.lean ====
/-
  Rows placed end to end, and the concatenation of two, three or four matrices along their column axis read at one
  element: row e, column k of the joined matrix is column k of the joined rows e of the pieces.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.LibConcatRows

variable {α : Type}

/-- Two rows end to end. -/
def catRow2 {A B : ℕ} (a : Fin A → α) (b : Fin B → α) : Fin (A + B) → α := fun k =>
  if h : k.val < A then a ⟨k.val, h⟩ else b ⟨k.val - A, by have := k.isLt; omega⟩

/-- Three rows end to end. -/
def catRow3 {A B C : ℕ} (a : Fin A → α) (b : Fin B → α) (c : Fin C → α) : Fin (A + B + C) → α := fun k =>
  if h : k.val < A then a ⟨k.val, h⟩
  else if h2 : k.val < A + B then b ⟨k.val - A, by omega⟩
  else c ⟨k.val - (A + B), by have := k.isLt; omega⟩

/-- Four rows end to end. -/
def catRow4 {A B C D : ℕ} (a : Fin A → α) (b : Fin B → α) (c : Fin C → α) (d : Fin D → α) :
    Fin (A + B + C + D) → α := fun k =>
  if h : k.val < A then a ⟨k.val, h⟩
  else if h2 : k.val < A + B then b ⟨k.val - A, by omega⟩
  else if h3 : k.val < A + B + C then c ⟨k.val - (A + B), by omega⟩
  else d ⟨k.val - (A + B + C), by have := k.isLt; omega⟩

/-- The joined matrix read at row e and a column k lying in piece number p (which starts at column `pre`): piece p at
    row e and column k - pre, written as a column q of the piece with pre + q = k. -/
theorem concat_rows_piece {M N W : ℕ} (xs : List ((s : Shape) × (s.Idx → α)))
    (h : Shape.Concatenates (xs.map (·.1)) ⟨2, ![M, N]⟩ (1 : Fin 2))
    (p : ℕ) (hp : p < xs.length) (x : (⟨2, ![M, W]⟩ : Shape).Idx → α) (hx : xs[p] = ⟨⟨2, ![M, W]⟩, x⟩)
    (pre : ℕ)
    (hpre : (((xs.take p).map (·.1)).map fun s : Shape =>
      if h : s.rank = (⟨2, ![M, N]⟩ : Shape).rank then s.size ((1 : Fin 2).cast h.symm) else 0).sum = pre)
    (e : Fin M) (k : Fin N) (q : Fin W) (hq : pre + q.val = k.val) :
    concatenate (⟨2, ![M, N]⟩ : Shape) (1 : Fin 2) xs h (ix2 e k) = x (ix2 e q) := by
  refine concatenate_apply_piece (t := ⟨2, ![M, N]⟩) (1 : Fin 2) xs h (ix2 e k) p hp _ x hx rfl pre hpre (ix2 e q) ?_ ?_
  · intro b hb
    match b with
    | ⟨0, _⟩ => rfl
    | ⟨1, _⟩ => exact absurd rfl hb
  · exact hq

/-- Two matrices joined along the columns, at row e and column k. -/
theorem concat2_rows {M A B : ℕ} (xa : (⟨2, ![M, A]⟩ : Shape).Idx → α) (xb : (⟨2, ![M, B]⟩ : Shape).Idx → α)
    (h : Shape.Concatenates (([⟨⟨2, ![M, A]⟩, xa⟩, ⟨⟨2, ![M, B]⟩, xb⟩] : List ((s : Shape) × (s.Idx → α))).map (·.1))
      ⟨2, ![M, A + B]⟩ (1 : Fin 2))
    (e : Fin M) (k : Fin (A + B)) :
    concatenate (⟨2, ![M, A + B]⟩ : Shape) (1 : Fin 2) [⟨⟨2, ![M, A]⟩, xa⟩, ⟨⟨2, ![M, B]⟩, xb⟩] h (ix2 e k)
      = catRow2 (fun i => xa (ix2 e i)) (fun i => xb (ix2 e i)) k := by
  unfold catRow2
  split_ifs with h1
  · exact concat_rows_piece _ h 0 (by simp) xa rfl 0 (by simp) e k ⟨k.val, h1⟩ (by simp)
  · exact concat_rows_piece _ h 1 (by simp) xb rfl A (by simp) e k ⟨k.val - A, by have := k.isLt; omega⟩
      (by simp only; omega)

/-- Three matrices joined along the columns, at row e and column k. -/
theorem concat3_rows {M A B C : ℕ} (xa : (⟨2, ![M, A]⟩ : Shape).Idx → α) (xb : (⟨2, ![M, B]⟩ : Shape).Idx → α)
    (xc : (⟨2, ![M, C]⟩ : Shape).Idx → α)
    (h : Shape.Concatenates (([⟨⟨2, ![M, A]⟩, xa⟩, ⟨⟨2, ![M, B]⟩, xb⟩, ⟨⟨2, ![M, C]⟩, xc⟩] : List ((s : Shape) × (s.Idx → α))).map (·.1))
      ⟨2, ![M, A + B + C]⟩ (1 : Fin 2))
    (e : Fin M) (k : Fin (A + B + C)) :
    concatenate (⟨2, ![M, A + B + C]⟩ : Shape) (1 : Fin 2) [⟨⟨2, ![M, A]⟩, xa⟩, ⟨⟨2, ![M, B]⟩, xb⟩, ⟨⟨2, ![M, C]⟩, xc⟩] h (ix2 e k)
      = catRow3 (fun i => xa (ix2 e i)) (fun i => xb (ix2 e i)) (fun i => xc (ix2 e i)) k := by
  unfold catRow3
  split_ifs with h1 h2
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k
      ⟨k.val - (A + B), by have := k.isLt; omega⟩ (by simp only; omega)

/-- Four matrices joined along the columns, at row e and column k. -/
theorem concat4_rows {M A B C D : ℕ} (xa : (⟨2, ![M, A]⟩ : Shape).Idx → α) (xb : (⟨2, ![M, B]⟩ : Shape).Idx → α)
    (xc : (⟨2, ![M, C]⟩ : Shape).Idx → α) (xd : (⟨2, ![M, D]⟩ : Shape).Idx → α)
    (h : Shape.Concatenates (([⟨⟨2, ![M, A]⟩, xa⟩, ⟨⟨2, ![M, B]⟩, xb⟩, ⟨⟨2, ![M, C]⟩, xc⟩, ⟨⟨2, ![M, D]⟩, xd⟩] : List ((s : Shape) × (s.Idx → α))).map (·.1))
      ⟨2, ![M, A + B + C + D]⟩ (1 : Fin 2))
    (e : Fin M) (k : Fin (A + B + C + D)) :
    concatenate (⟨2, ![M, A + B + C + D]⟩ : Shape) (1 : Fin 2)
        [⟨⟨2, ![M, A]⟩, xa⟩, ⟨⟨2, ![M, B]⟩, xb⟩, ⟨⟨2, ![M, C]⟩, xc⟩, ⟨⟨2, ![M, D]⟩, xd⟩] h (ix2 e k)
      = catRow4 (fun i => xa (ix2 e i)) (fun i => xb (ix2 e i)) (fun i => xc (ix2 e i)) (fun i => xd (ix2 e i)) k := by
  unfold catRow4
  split_ifs with h1 h2 h3
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k ⟨k.val - (A + B), by omega⟩
      (by simp only; omega)
  · exact concat_rows_piece _ h 3 (by simp) xd rfl (A + B + C) (by simp [Nat.add_assoc]) e k
      ⟨k.val - (A + B + C), by have := k.isLt; omega⟩ (by simp only; omega)

end Cert.LibConcatRows

end
-- ==== Proof.LibMlpRows.lean ====
/-
  A three-layer perceptron applied to one row of a matrix, over the extended reals: an affine layer is the row times a
  weight matrix plus a bias row, the activation is the maximum with a threshold, and the network is
  affine, activation, affine, activation, affine. The two ways a program spells one affine layer of a whole matrix are
  read at one element: the matrix unit's product accumulated into the zero matrix with the bias kept as a one-row matrix
  and broadcast over the rows, and the host's product with the bias kept as a vector, broadcast first to one row and then
  over the rows. Both are the same sum over the contracted coordinate plus the bias entry of the column.
-/
import Idealize.ShloMosaic.PureOps.Ideal.Laws
import Idealize.ShloMosaic.Lib.ValueIdx
import Idealize.ShloMosaic.Lib.Pipeline.Value
import proofs.«158507_j24361054502956_1_alg».proof.Proof.LibPlainMatmul
import proofs.«158507_j24361054502956_1_alg».proof.Proof.LibConcatRows

noncomputable section

open Idealize.ShloMosaic Idealize.ShloMosaic.ValueIdx

namespace Cert.LibMlpRows

/-- One affine layer on a row: entry j is ∑ₖ xₖ · w(k, j) + bⱼ. -/
def layer {K N : ℕ} (x : Fin K → EReal) (w : Fin K → Fin N → EReal) (b : Fin N → EReal) : Fin N → EReal :=
  fun j => (∑ k : Fin K, x k * w k j) + b j

/-- The activation: each entry's maximum with the threshold z. -/
def act {N : ℕ} (z : EReal) (v : Fin N → EReal) : Fin N → EReal := fun j => max (v j) z

/-- Affine, activation, affine, activation, affine. -/
def mlp3 {K H₁ H₂ N : ℕ} (z : EReal) (x : Fin K → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : Fin N → EReal :=
  layer (act z (layer (act z (layer x w₁ b₁)) w₂ b₂)) w₃ b₃

/-- The matrix unit's layer: the product into a zero accumulator plus a one-row bias broadcast over the rows, at row e
    and column j. -/
theorem unit_layer_apply {M K N : ℕ} {φ₁ φ₂ : FTy} (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (e : Fin M) (j : Fin N) :
    addf (matmul (DotDims.plain M K N) none x w (constant (⟨2, ![M, N]⟩ : Shape) .f32 0x00000000#32))
        (broadcastTo (⟨2, ![M, N]⟩ : Shape) b hb) (ix2 e j)
      = layer (fun k => x (ix2 e k)) (fun k n => w (ix2 k n)) (fun n => b (ix2 (0 : Fin 1) n)) j := by
  rw [addf_apply, Cert.LibPlainMatmul.matmul_plain_apply]
  unfold layer
  congr 1
  refine broadcastTo_apply b hb (ix2 e j) (ix2 (0 : Fin 1) j) fun a => ?_
  match a with
  | ⟨0, _⟩ => rfl
  | ⟨1, _⟩ =>
    show j.val = if N = 1 then 0 else j.val
    split_ifs with h1
    · have := j.isLt; omega
    · rfl

/-- The host's layer: the product plus a bias vector broadcast to one row and then over the rows, at row e and column j. -/
theorem host_layer_apply {M K N : ℕ} {φ₁ φ₂ : FTy} (x : FVec Ideal ⟨2, ![M, K]⟩ φ₁) (w : FVec Ideal ⟨2, ![K, N]⟩ φ₂)
    (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    addf (Host.dotGeneral (DotDims.plain M K N) none x w)
        (broadcastInDim (⟨2, ![M, N]⟩ : Shape) ![0, 1] h₂ (broadcastInDim (⟨2, ![1, N]⟩ : Shape) ![1] h₁ b)) (ix2 e j)
      = layer (fun k => x (ix2 e k)) (fun k n => w (ix2 k n)) (fun n => b (ix1 n)) j := by
  rw [addf_apply, Cert.LibPlainMatmul.dotGeneral_plain_apply]
  unfold layer
  congr 1
  refine (broadcastInDim_apply ![0, 1] h₂ _ (ix2 e j) (ix2 (0 : Fin 1) j) fun a => ?_).trans
    (broadcastInDim_apply ![1] h₁ b (ix2 (0 : Fin 1) j) (ix1 j) fun a => ?_)
  · match a with
    | ⟨0, _⟩ => rfl
    | ⟨1, _⟩ =>
      show j.val = if N = 1 then 0 else j.val
      split_ifs with h1
      · have := j.isLt; omega
      · rfl
  · match a with
    | ⟨0, _⟩ =>
      show j.val = if N = 1 then 0 else j.val
      split_ifs with h1
      · have := j.isLt; omega
      · rfl

/-- The activation of a matrix against a splat threshold, at one element. -/
theorem act_apply {s : Shape} {φ : FTy} (v : FVec Ideal s φ) (z : Ideal φ) (i : s.Idx) :
    maximumf v (broadcast s z) i = max (v i) z := rfl

/-- The network applied to every row of a matrix. -/
def mlpRows {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : (⟨2, ![M, N]⟩ : Shape).Idx → EReal :=
  fun i => mlp3 z (fun k => x (ix2 (n0 := M) (i 0) k)) w₁ b₁ w₂ b₂ w₃ b₃ (i 1)

theorem mlpRows_ix2 {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) (e : Fin M) (j : Fin N) :
    mlpRows z x w₁ b₁ w₂ b₂ w₃ b₃ (ix2 e j) = mlp3 z (fun k => x (ix2 e k)) w₁ b₁ w₂ b₂ w₃ b₃ j := rfl

/-- Two matrices of 64 columns each side by side: row e of the result is row e of the first followed by row e of the
    second. -/
def joinRows64 {M : ℕ} (a b : (⟨2, ![M, 64]⟩ : Shape).Idx → EReal) : (⟨2, ![M, 128]⟩ : Shape).Idx → EReal :=
  fun i => if h : (i 1).val < 64 then a (ix2 (n0 := M) (i 0) ⟨(i 1).val, h⟩)
    else b (ix2 (n0 := M) (i 0) ⟨(i 1).val - 64, by have := idx2_lt1 i; omega⟩)

/-- The join of two 64-column matrices along the columns is `joinRows64`. -/
theorem concatenate_eq_joinRows64 {M : ℕ} (a b : (⟨2, ![M, 64]⟩ : Shape).Idx → EReal)
    (h : Shape.Concatenates (([⟨⟨2, ![M, 64]⟩, a⟩, ⟨⟨2, ![M, 64]⟩, b⟩] : List ((s : Shape) × (s.Idx → EReal))).map (·.1))
      ⟨2, ![M, 128]⟩ (1 : Fin 2)) :
    concatenate (⟨2, ![M, 128]⟩ : Shape) (1 : Fin 2) [⟨⟨2, ![M, 64]⟩, a⟩, ⟨⟨2, ![M, 64]⟩, b⟩] h = joinRows64 a b := by
  funext i
  obtain ⟨e, k, rfl⟩ : ∃ (e : Fin M) (k : Fin 128), i = ix2 e k := ⟨i 0, i 1, eq_ix2 i⟩
  unfold joinRows64
  split_ifs with h1
  · exact Cert.LibConcatRows.concat_rows_piece _ h 0 (by simp) a rfl 0 (by simp) e k ⟨k.val, h1⟩ (by simp)
  · exact Cert.LibConcatRows.concat_rows_piece _ h 1 (by simp) b rfl 64 (by simp) e k
      ⟨k.val - 64, by have := k.isLt; omega⟩ (by simp only; have : ¬ k.val < 64 := h1; omega)

/-- A splat of a constant word over any shape, at one element: the word's value. -/
theorem splat_const_apply {t : Shape} (h : (⟨0, ![]⟩ : Shape).BroadcastsInDim t ![]) (w : BitVec 32) (i : t.Idx) :
    broadcastInDim t ![] h (constant (F := Ideal) (⟨0, ![]⟩ : Shape) .f32 w) i = Ideal.ofBits .f32 w :=
  (broadcastInDim_apply ![] h _ i ix0 (fun a => a.elim0)).trans rfl

/-- The network on the rows of a matrix x, at an element y, is the network on the rows of a matrix X at an element i,
    when row y₀ of x is row i₀ of X and the two elements are in the same column. -/
theorem mlpRows_block {M M' K H₁ H₂ N : ℕ} (z : EReal) (X : (⟨2, ![M, K]⟩ : Shape).Idx → EReal)
    (x : (⟨2, ![M', K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal)
    (y : (⟨2, ![M', N]⟩ : Shape).Idx) (i : (⟨2, ![M, N]⟩ : Shape).Idx)
    (hrow : ∀ k : Fin K, x (ix2 (n0 := M') (y 0) k) = X (ix2 (n0 := M) (i 0) k)) (hcol : (y 1).val = (i 1).val) :
    mlpRows z x w₁ b₁ w₂ b₂ w₃ b₃ y = mlpRows z X w₁ b₁ w₂ b₂ w₃ b₃ i := by
  unfold mlpRows
  have hx : (fun k => x (ix2 (n0 := M') (y 0) k)) = fun k => X (ix2 (n0 := M) (i 0) k) := funext hrow
  rw [hx]
  exact congrArg _ (Fin.ext hcol)

/-- Row r of the join of a and b is row R of the join of A and B when the rows of the pieces are. -/
theorem joinRows64_block {M M' : ℕ} (A B : (⟨2, ![M, 64]⟩ : Shape).Idx → EReal) (a b : (⟨2, ![M', 64]⟩ : Shape).Idx → EReal)
    (r : Fin M') (R : Fin M) (ha : ∀ q : Fin 64, a (ix2 r q) = A (ix2 R q)) (hb : ∀ q : Fin 64, b (ix2 r q) = B (ix2 R q))
    (k : Fin 128) : joinRows64 a b (ix2 r k) = joinRows64 A B (ix2 R k) := by
  show (if h : k.val < 64 then a (ix2 r ⟨k.val, h⟩) else b (ix2 r ⟨k.val - 64, _⟩))
    = (if h : k.val < 64 then A (ix2 R ⟨k.val, h⟩) else B (ix2 R ⟨k.val - 64, _⟩))
  split_ifs with h
  · exact ha _
  · exact hb _

end Cert.LibMlpRows

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.KStats.lean ====
/-
  The statistics pass of the batch-normalised perceptron: two one-row accumulators over a grid of 50 points.

  At point t the body takes rows 10000 t … 10000 t + 9999 of the edge rows m, forms the hidden layer
  x(r, j) = ∑ₖ m(r, k) · w(k, j) + b(j) of that block, and adds to column j of the first accumulator the block's
  ∑ᵣ x(r, j) and to column j of the second the block's ∑ᵣ x(r, j)². At point 0 both accumulators are first set to
  zero; at every later point they start from what the point before left. Both are written to their arrays once, after
  point 49.

  So after the last point column j of the first array is ∑ over all 500000 rows of x(r, j), and column j of the second
  is the same sum of x(r, j)²: a sum over 50 · 10000 rows taken tile by tile. Addition of extended reals commutes and
  associates, so no entry needs to be finite for this.
-/
import proofs.«158507_j24361054502956_1_alg».proof.Proof.Gen.KernelIdeal.Frame
import proofs.«158507_j24361054502956_1_alg».proof.Proof.Spec
import proofs.«158507_j24361054502956_1_alg».proof.Proof.KTerms
import proofs.«158507_j24361054502956_1_alg».proof.Proof.LibMlpRows
import proofs.«158507_j24361054502956_1_alg».proof.Proof.LibTiledSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Stats

open Cert.KernelIdeal Cert.KernelIdeal.Gen

theorem hz : (![0, 0] : Fin 2 → Nat) = fun _ => 0 := funext fun a => by fin_cases a <;> rfl

/-! ## What each control case leaves in the two accumulators -/

section Pieces
variable {F : FTy → Type} [FloatOps F]

/-- At a later point the first accumulator ends at its update computed from the block, the weights, the bias and what it
    held before. -/
theorem out_B_3 (c : Dev nD) (i : grid0.Coords) (a1 : Memref sig .tc .vmem S10000x160 .bf16) (h1 : a1.IsWhole)
    (a2 : Memref sig .tc .vmem S160x160 .bf16) (h2 : a2.IsWhole) (a3 : Memref sig .tc .vmem S1x160 .f32) (h3 : a3.IsWhole)
    (a4 : Memref sig .tc .vmem S1x160 .f32) (h4 : a4.IsWhole) (a5 : Memref sig .tc .vmem S1x160 .f32) (h5 : a5.IsWhole)
    (hc : ¬cond0_0 i) (x0 : Vec F S10000x160 .bf16) (x1 : Vec F S160x160 .bf16) (x2 : Vec F S1x160 .f32)
    (xo3 xo4 : Vec F S1x160 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero (S := S1x160) hz]
  simp only [View.readAt_eq_ld, h1.read_unread, h2.read_unread, h3.read_unread, h4.read_unread, h5.read_unread,
    View.ld_unit_zero (S := S10000x160) hz, View.ld_unit_zero (S := S160x160) hz, View.ld_unit_zero (S := S1x160) hz]

/-- At a later point the second accumulator likewise. -/
theorem out_B_4 (c : Dev nD) (i : grid0.Coords) (a1 : Memref sig .tc .vmem S10000x160 .bf16) (h1 : a1.IsWhole)
    (a2 : Memref sig .tc .vmem S160x160 .bf16) (h2 : a2.IsWhole) (a3 : Memref sig .tc .vmem S1x160 .f32) (h3 : a3.IsWhole)
    (a4 : Memref sig .tc .vmem S1x160 .f32) (h4 : a4.IsWhole) (a5 : Memref sig .tc .vmem S1x160 .f32) (h5 : a5.IsWhole)
    (hc : ¬cond0_0 i) (x0 : Vec F S10000x160 .bf16) (x1 : Vec F S160x160 .bf16) (x2 : Vec F S1x160 .f32)
    (xo3 xo4 : Vec F S1x160 .f32) :
    out0_B_4 c i a1 h1 a2 h2 a3 h3 a4 h4 a5 h5 hc x0 x1 x2 xo3 xo4 = k0_pay5 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero (S := S1x160) hz]
  simp only [View.readAt_eq_ld, h1.read_unread, h2.read_unread, h3.read_unread, h4.read_unread, h5.read_unread,
    View.ld_unit_zero (S := S10000x160) hz, View.ld_unit_zero (S := S160x160) hz, View.ld_unit_zero (S := S1x160) hz]

/-- At the first point the first accumulator is zeroed, read back, and updated. -/
theorem out_A_3 (c : Dev nD) (i : grid0.Coords) (a1 : Memref sig .tc .vmem S10000x160 .bf16) (h1 : a1.IsWhole)
    (a2 : Memref sig .tc .vmem S160x160 .bf16) (h2 : a2.IsWhole) (a3 : Memref sig .tc .vmem S1x160 .f32) (h3 : a3.IsWhole)
    (a4 : Memref sig .tc .vmem S1x160 .f32) (h4 : a4.IsWhole) (a5 : Memref sig .tc .vmem S1x160 .f32) (h5 : a5.IsWhole)
    (hc : cond0_0 i) (x0 : Vec F S10000x160 .bf16) (x1 : Vec F S160x160 .bf16) (x2 : Vec F S1x160 .f32) :
    out0_A_3 c i a1 h1 a2 h2 a3 h3 a4 h4 a5 h5 hc x0 x1 x2 = k0_pay4 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x160) hz, View.readCov_unit_zero (S := S1x160) _ hz]
  simp only [View.readAt_eq_ld, h1.read_unread, h2.read_unread, h3.read_unread,
    View.ld_unit_zero (S := S10000x160) hz, View.ld_unit_zero (S := S160x160) hz, View.ld_unit_zero (S := S1x160) hz]

/-- At the first point the second accumulator likewise. -/
theorem out_A_4 (c : Dev nD) (i : grid0.Coords) (a1 : Memref sig .tc .vmem S10000x160 .bf16) (h1 : a1.IsWhole)
    (a2 : Memref sig .tc .vmem S160x160 .bf16) (h2 : a2.IsWhole) (a3 : Memref sig .tc .vmem S1x160 .f32) (h3 : a3.IsWhole)
    (a4 : Memref sig .tc .vmem S1x160 .f32) (h4 : a4.IsWhole) (a5 : Memref sig .tc .vmem S1x160 .f32) (h5 : a5.IsWhole)
    (hc : cond0_0 i) (x0 : Vec F S10000x160 .bf16) (x1 : Vec F S160x160 .bf16) (x2 : Vec F S1x160 .f32) :
    out0_A_4 c i a1 h1 a2 h2 a3 h3 a4 h4 a5 h5 hc x0 x1 x2 = k0_pay5 x0 x1 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x160) hz, View.readCov_unit_zero (S := S1x160) _ hz]
  simp only [View.readAt_eq_ld, h1.read_unread, h2.read_unread, h3.read_unread,
    View.ld_unit_zero (S := S10000x160) hz, View.ld_unit_zero (S := S160x160) hz, View.ld_unit_zero (S := S1x160) hz]

end Pieces

/-! ## The updates at one column, over the extended reals -/

/-- The block's hidden layer at row r and column j: the row times the weights plus the bias entry. -/
theorem pay3_apply (x0 : Vec Ideal S10000x160 .bf16) (x1 : Vec Ideal S160x160 .bf16) (x2 : Vec Ideal S1x160 .f32)
    (r : Fin 10000) (j : Fin 160) :
    k0_pay3 (F := Ideal) x0 x1 x2 (ix2 r j) = (∑ k : Fin 160, x0 (ix2 r k) * x1 (ix2 k j)) + x2 (ix2 (0 : Fin 1) j) := by
  unfold k0_pay3
  simp only [shapeCast_self]
  exact Cert.LibMlpRows.unit_layer_apply (M := 10000) (K := 160) (N := 160) x0 x1 x2 broadcasts_S1x160_S10000x160 r j

/-- A one-row accumulator plus the sum down the rows of a block, at column j. -/
theorem addRows_apply (src : FVec Ideal S10000x160 .f32) (acc : FVec Ideal S1x160 .f32) (hφ : FKind.Formats .f32)
    (hacc : (0x00000000#32 : BitVec 32) = FKind.add.neutral .f32 hφ) (j : Fin 160) :
    addf (shapeCast S1x160 acc shapeCasts_S1x160_S1x160)
        (shapeCast S1x160 (multiReduction .add [0] S160 src 0x00000000#32 reduces_S10000x160_S160 hφ hacc) shapeCasts_S160_S1x160)
        (ix2 (0 : Fin 1) j)
      = acc (ix2 (0 : Fin 1) j) + ∑ r : Fin 10000, src (ix2 r j) := by
  rw [addf_apply, shapeCast_self, shapeCast_a_1a_apply, Ideal.multiReduction_add_single]
  congr 1
  exact Finset.sum_congr rfl fun r _ => congrArg src (funext fun a => Fin.ext (by
    match a with
    | ⟨0, _⟩ => rfl
    | ⟨1, _⟩ => rfl))

/-- The first accumulator's update at column j: what it held plus the block's column sum. -/
theorem pay4_apply (x0 : Vec Ideal S10000x160 .bf16) (x1 : Vec Ideal S160x160 .bf16) (x2 : Vec Ideal S1x160 .f32)
    (acc : Vec Ideal S1x160 .f32) (j : Fin 160) :
    k0_pay4 (F := Ideal) x0 x1 x2 acc (ix2 (0 : Fin 1) j)
      = acc (ix2 (0 : Fin 1) j) + ∑ r : Fin 10000, k0_pay3 (F := Ideal) x0 x1 x2 (ix2 r j) := by
  unfold k0_pay4
  exact addRows_apply (k0_pay3 (F := Ideal) x0 x1 x2) acc _ _ j

/-- The second accumulator's update at column j: what it held plus the block's column sum of squares. -/
theorem pay5_apply (x0 : Vec Ideal S10000x160 .bf16) (x1 : Vec Ideal S160x160 .bf16) (x2 : Vec Ideal S1x160 .f32)
    (acc : Vec Ideal S1x160 .f32) (j : Fin 160) :
    k0_pay5 (F := Ideal) x0 x1 x2 acc (ix2 (0 : Fin 1) j)
      = acc (ix2 (0 : Fin 1) j)
        + ∑ r : Fin 10000, k0_pay3 (F := Ideal) x0 x1 x2 (ix2 r j) * k0_pay3 (F := Ideal) x0 x1 x2 (ix2 r j) := by
  unfold k0_pay5
  exact addRows_apply (mulf (k0_pay3 (F := Ideal) x0 x1 x2) (k0_pay3 (F := Ideal) x0 x1 x2)) acc _ _ j

/-! ## The blocks the body reads, as entries of the three input arrays -/

section Run
variable (V : (c : Dev nD) → (b : Ref sig .tc) → Buf (Elt Ideal) ((c : Thread nD τ).loc b))

/-- The edge rows as the region finds them. -/
abbrev marr (c : Dev nD) : S500000x160.Idx → EReal := V c main_v8
/-- The first layer's weights as the region finds them. -/
abbrev warr (c : Dev nD) : S160x160.Idx → EReal := V c main_v10
/-- The first layer's bias row as the region finds it. -/
abbrev barr (c : Dev nD) : S1x160.Idx → EReal := V c main_v13

/-- The block of edge rows at a point. -/
abbrev xblk (c : Dev nD) (t : Fin cfg0.N) : Vec Ideal S10000x160 .bf16 := iblk0 V c 0 t
/-- The weights' block at a point (the whole array). -/
abbrev wblk (c : Dev nD) (t : Fin cfg0.N) : Vec Ideal S160x160 .bf16 := iblk0 V c 1 t
/-- The bias row's block at a point (the whole array). -/
abbrev bblk (c : Dev nD) (t : Fin cfg0.N) : Vec Ideal S1x160 .f32 := iblk0 V c 2 t

/-- The hidden layer read off the region's three input arrays as it finds them. -/
def hid (c : Dev nD) : Fin 500000 → Fin 160 → EReal :=
  GinSpec.lin (GinSpec.rd2 (V c main_v8 : S500000x160.Idx → EReal)) (GinSpec.rd2 (V c main_v10 : S160x160.Idx → EReal))
    (GinSpec.rdRow (V c main_v13 : S1x160.Idx → EReal))

/-- Where the windows' blocks sit: the row block moves with the point, the other two stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row r of the point's block is row 10000 t + r of the edge rows. -/
theorem xblk_apply (c : Dev nD) (t : Fin cfg0.N) (r : Fin 10000) (k : Fin 160) (hr : t.val * 10000 + r.val < 500000) :
    xblk V c t (ix2 r k) = marr V c (ix2 ⟨t.val * 10000 + r.val, hr⟩ k) := by
  unfold xblk marr iblk0
  rw [View.read_apply]
  show V c main_v8 (((cfg0.win 0).blk t).view.emb (ix2 r k)) = V c main_v8 (ix2 ⟨t.val * 10000 + r.val, hr⟩ k)
  congr 1
  funext a
  apply Fin.ext
  obtain ⟨e0, e1, -⟩ := idx_facts t
  match a with
  | ⟨0, _⟩ => show win0_0.index t 0 * 10000 + 1 * r.val = t.val * 10000 + r.val; rw [e0]; omega
  | ⟨1, _⟩ => show win0_0.index t 1 * 160 + 1 * k.val = k.val; rw [e1]; omega

theorem wblk_apply (c : Dev nD) (t : Fin cfg0.N) (k : Fin 160) (j : Fin 160) :
    wblk V c t (ix2 k j) = warr V c (ix2 k j) := by
  unfold wblk warr iblk0
  rw [View.read_apply]
  show V c main_v10 (((cfg0.win 1).blk t).view.emb (ix2 k j)) = V c main_v10 (ix2 k j)
  congr 1
  funext a
  apply Fin.ext
  obtain ⟨-, -, e0, e1, -⟩ := idx_facts t
  match a with
  | ⟨0, _⟩ => show win0_1.index t 0 * 160 + 1 * k.val = k.val; rw [e0]; omega
  | ⟨1, _⟩ => show win0_1.index t 1 * 160 + 1 * j.val = j.val; rw [e1]; omega

theorem bblk_apply (c : Dev nD) (t : Fin cfg0.N) (j : Fin 160) :
    bblk V c t (ix2 (0 : Fin 1) j) = barr V c (ix2 (0 : Fin 1) j) := by
  unfold bblk barr iblk0
  rw [View.read_apply]
  show V c main_v13 (((cfg0.win 2).blk t).view.emb (ix2 (0 : Fin 1) j)) = V c main_v13 (ix2 (0 : Fin 1) j)
  congr 1
  funext a
  apply Fin.ext
  obtain ⟨-, -, -, -, e0, e1⟩ := idx_facts t
  match a with
  | ⟨0, _⟩ => show win0_2.index t 0 * 1 + 1 * 0 = 0; rw [e0]
  | ⟨1, _⟩ => show win0_2.index t 1 * 160 + 1 * j.val = j.val; rw [e1]; omega

/-! ## The accumulators point by point -/

/-- The block's column sum of the hidden layer at a point. -/
def tileSum (c : Dev nD) (t : Fin cfg0.N) (j : Fin 160) : EReal :=
  ∑ r : Fin 10000, k0_pay3 (F := Ideal) (xblk V c t) (wblk V c t) (bblk V c t) (ix2 r j)

/-- The block's column sum of the squared hidden layer at a point. -/
def tileSq (c : Dev nD) (t : Fin cfg0.N) (j : Fin 160) : EReal :=
  ∑ r : Fin 10000, k0_pay3 (F := Ideal) (xblk V c t) (wblk V c t) (bblk V c t) (ix2 r j)
    * k0_pay3 (F := Ideal) (xblk V c t) (wblk V c t) (bblk V c t) (ix2 r j)

/-- The stored zero row is zero. -/
theorem zero1_apply (j : Fin 160) : k0_pay1 (F := Ideal) (ix2 (0 : Fin 1) j) = 0 :=
  Ideal.ofBits_zero_f32
theorem zero2_apply (j : Fin 160) : k0_pay2 (F := Ideal) (ix2 (0 : Fin 1) j) = 0 :=
  Ideal.ofBits_zero_f32

/-- At the first point the sum accumulator ends at the block's column sum. -/
theorem sum_first (c : Dev nD) (t : Fin cfg0.N) (h0 : t.val % 50 = 0) (j : Fin 160) :
    (outsAt0 V c t.val t.isLt).1 (ix2 (0 : Fin 1) j) = tileSum V c t j := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (xblk V c t) (wblk V c t) (bblk V c t)) (ix2 (0 : Fin 1) j)).trans ?_
  refine (pay4_apply (xblk V c t) (wblk V c t) (bblk V c t) (k0_pay1 (F := Ideal)) j).trans ?_
  rw [zero1_apply, zero_add]
  rfl

/-- At the first point the squares accumulator ends at the block's column sum of squares. -/
theorem sq_first (c : Dev nD) (t : Fin cfg0.N) (h0 : t.val % 50 = 0) (j : Fin 160) :
    (outsAt0 V c t.val t.isLt).2 (ix2 (0 : Fin 1) j) = tileSq V c t j := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (xblk V c t) (wblk V c t) (bblk V c t)) (ix2 (0 : Fin 1) j)).trans ?_
  refine (pay5_apply (xblk V c t) (wblk V c t) (bblk V c t) (k0_pay2 (F := Ideal)) j).trans ?_
  rw [zero2_apply, zero_add]
  rfl

/-- At a later point the sum accumulator gains the block's column sum. -/
theorem sum_later (c : Dev nD) (t : Fin cfg0.N) (h0 : ¬t.val % 50 = 0) (j : Fin 160) :
    (outsAt0 V c t.val t.isLt).1 (ix2 (0 : Fin 1) j)
      = (outsAt0 V c (t.val - 1) (Nat.lt_of_le_of_lt (Nat.sub_le _ _) t.isLt)).1 (ix2 (0 : Fin 1) j) + tileSum V c t j := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (xblk V c t) (wblk V c t) (bblk V c t) (outsAt0 V c (t.val - 1) (Nat.lt_of_le_of_lt (Nat.sub_le _ _) t.isLt)).1 (outsAt0 V c (t.val - 1) (Nat.lt_of_le_of_lt (Nat.sub_le _ _) t.isLt)).2) (ix2 (0 : Fin 1) j)).trans ?_
  exact pay4_apply (xblk V c t) (wblk V c t) (bblk V c t) (outsAt0 V c (t.val - 1) (Nat.lt_of_le_of_lt (Nat.sub_le _ _) t.isLt)).1 j

/-- At a later point the squares accumulator gains the block's column sum of squares. -/
theorem sq_later (c : Dev nD) (t : Fin cfg0.N) (h0 : ¬t.val % 50 = 0) (j : Fin 160) :
    (outsAt0 V c t.val t.isLt).2 (ix2 (0 : Fin 1) j)
      = (outsAt0 V c (t.val - 1) (Nat.lt_of_le_of_lt (Nat.sub_le _ _) t.isLt)).2 (ix2 (0 : Fin 1) j) + tileSq V c t j := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (xblk V c t) (wblk V c t) (bblk V c t) (outsAt0 V c (t.val - 1) (Nat.lt_of_le_of_lt (Nat.sub_le _ _) t.isLt)).1 (outsAt0 V c (t.val - 1) (Nat.lt_of_le_of_lt (Nat.sub_le _ _) t.isLt)).2) (ix2 (0 : Fin 1) j)).trans ?_
  exact pay5_apply (xblk V c t) (wblk V c t) (bblk V c t) (outsAt0 V c (t.val - 1) (Nat.lt_of_le_of_lt (Nat.sub_le _ _) t.isLt)).2 j

/-- A point's addend to the sum accumulator, as a function of every natural (zero past the grid). -/
def addS (c : Dev nD) (j : Fin 160) (s : ℕ) : EReal := if h : s < cfg0.N then tileSum V c ⟨s, h⟩ j else 0
/-- A point's addend to the squares accumulator. -/
def addQ (c : Dev nD) (j : Fin 160) (s : ℕ) : EReal := if h : s < cfg0.N then tileSq V c ⟨s, h⟩ j else 0

/-- After point n the sum accumulator holds the addends of points 0 … n. -/
theorem sum_at (c : Dev nD) (j : Fin 160) : ∀ (n : ℕ) (h : n < cfg0.N),
    (outsAt0 V c n h).1 (ix2 (0 : Fin 1) j) = ∑ s ∈ Finset.range (n + 1), addS V c j s
  | 0, h => by
    rw [Finset.sum_range_one]
    refine (sum_first V c ⟨0, h⟩ rfl j).trans ?_
    unfold addS
    rw [dif_pos h]
  | n + 1, h => by
    have hN : cfg0.N = 50 := N_0
    have hB : ¬(⟨n + 1, h⟩ : Fin cfg0.N).val % 50 = 0 := by dsimp only; omega
    rw [Finset.sum_range_succ, ← sum_at c j n (Nat.lt_of_succ_lt h)]
    refine (sum_later V c ⟨n + 1, h⟩ hB j).trans ?_
    unfold addS
    rw [dif_pos h]
    rfl

/-- After point n the squares accumulator holds the addends of points 0 … n. -/
theorem sq_at (c : Dev nD) (j : Fin 160) : ∀ (n : ℕ) (h : n < cfg0.N),
    (outsAt0 V c n h).2 (ix2 (0 : Fin 1) j) = ∑ s ∈ Finset.range (n + 1), addQ V c j s
  | 0, h => by
    rw [Finset.sum_range_one]
    refine (sq_first V c ⟨0, h⟩ rfl j).trans ?_
    unfold addQ
    rw [dif_pos h]
  | n + 1, h => by
    have hN : cfg0.N = 50 := N_0
    have hB : ¬(⟨n + 1, h⟩ : Fin cfg0.N).val % 50 = 0 := by dsimp only; omega
    rw [Finset.sum_range_succ, ← sq_at c j n (Nat.lt_of_succ_lt h)]
    refine (sq_later V c ⟨n + 1, h⟩ hB j).trans ?_
    unfold addQ
    rw [dif_pos h]
    rfl

/-! ## From the blocks to the whole arrays -/

/-- Position r of tile t lies among the 500000 rows. -/
theorem row_lt (t : Fin cfg0.N) (r : Fin 10000) : t.val * 10000 + r.val < 500000 := by
  have := lt_of_lt_of_eq t.isLt (show cfg0.N = 50 from N_0)
  have := r.isLt
  omega

/-- The block's hidden layer at row r is the hidden layer of the whole arrays at row 10000 t + r. -/
theorem pay3_hid (c : Dev nD) (t : Fin cfg0.N) (r : Fin 10000) (j : Fin 160) :
    k0_pay3 (F := Ideal) (xblk V c t) (wblk V c t) (bblk V c t) (ix2 r j) = hid V c ⟨t.val * 10000 + r.val, row_lt t r⟩ j := by
  refine (pay3_apply (xblk V c t) (wblk V c t) (bblk V c t) r j).trans ?_
  unfold hid GinSpec.lin GinSpec.rd2 GinSpec.rdRow
  rw [bblk_apply V c t j]
  congr 1
  exact Finset.sum_congr rfl fun k _ => by rw [xblk_apply V c t r k (row_lt t r), wblk_apply V c t k j]

/-- The column sum over all rows, tile by tile. -/
theorem colSum_tiles (c : Dev nD) (j : Fin 160) : GinSpec.colSum (hid V c) j = ∑ s ∈ Finset.range 50, addS V c j s := by
  unfold GinSpec.colSum
  rw [TiledSum.sum_fin_tiles 50 10000 rfl (fun r => hid V c r j), Finset.sum_range]
  refine Finset.sum_congr rfl fun a _ => ?_
  have ha : a.val < cfg0.N := lt_of_lt_of_eq a.isLt N_0.symm
  unfold addS
  rw [dif_pos ha]
  unfold tileSum
  exact Finset.sum_congr rfl fun r _ => (pay3_hid V c ⟨a.val, ha⟩ r j).symm

/-- The column sum of squares over all rows, tile by tile. -/
theorem colSumSq_tiles (c : Dev nD) (j : Fin 160) : GinSpec.colSumSq (hid V c) j = ∑ s ∈ Finset.range 50, addQ V c j s := by
  unfold GinSpec.colSumSq
  rw [TiledSum.sum_fin_tiles 50 10000 rfl (fun r => hid V c r j * hid V c r j), Finset.sum_range]
  refine Finset.sum_congr rfl fun a _ => ?_
  have ha : a.val < cfg0.N := lt_of_lt_of_eq a.isLt N_0.symm
  unfold addQ
  rw [dif_pos ha]
  unfold tileSq
  exact Finset.sum_congr rfl fun r _ => by rw [pay3_hid V c ⟨a.val, ha⟩ r j]

/-- The last point of the grid. -/
theorem last_lt : 49 < cfg0.N := by rw [show cfg0.N = 50 from N_0]; decide
abbrev tLast : Fin cfg0.N := ⟨49, last_lt⟩

/-- The two accumulators' blocks sit at the origin at every point. -/
theorem out_idx_facts : ∀ t : Fin cfg0.N,
    win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What the sum accumulator holds after the last point, as contents of its array. -/
abbrev sumRow (c : Dev nD) : Buf (Elt Ideal) ((c : Thread nD τ).loc main_v17_0) := (outsAt0 V c 49 last_lt).1
/-- What the squares accumulator holds after the last point, as contents of its array. -/
abbrev sqRow (c : Dev nD) : Buf (Elt Ideal) ((c : Thread nD τ).loc main_v17_1) := (outsAt0 V c 49 last_lt).2

/-- The only write-back of the sum accumulator is at the last point and writes the whole array. -/
theorem flushed_3 (c : Dev nD) (t : Fin cfg0.N) (hf : (cfg0.win 3).flush t = true) :
    (dat0 V c).flushed 3 t = ((cfg0.win 3).blk t).view.read (Elt Ideal) (sumRow V c) := by
  have hN : cfg0.N = 50 := N_0
  have h49 : t.val = 49 := by have := (flush0_3 t).mp hf; have := t.isLt; omega
  obtain rfl : t = tLast := Fin.ext h49
  show (cfg0.win 3).cut (grid0.coords tLast) ((dat0 V c).after 3 tLast) = _
  rw [after0_3]
  obtain ⟨e0, e1, -⟩ := out_idx_facts tLast
  have hz' : (fun a => win0_3.index tLast a * main_v17_0.ty.shape.size a) = fun _ => 0 := funext fun a => by
    match a with
    | ⟨0, _⟩ => show win0_3.index tLast 0 * 1 = 0; rw [e0]
    | ⟨1, _⟩ => show win0_3.index tLast 1 * 160 = 0; rw [e1]
  exact (Memref.read_access_unit_zero (Elt Ideal) main_v17_0 hz' (fun a => by rw [congrFun hz' a]; simp) (sumRow V c)).symm

/-- The only write-back of the squares accumulator is at the last point and writes the whole array. -/
theorem flushed_4 (c : Dev nD) (t : Fin cfg0.N) (hf : (cfg0.win 4).flush t = true) :
    (dat0 V c).flushed 4 t = ((cfg0.win 4).blk t).view.read (Elt Ideal) (sqRow V c) := by
  have hN : cfg0.N = 50 := N_0
  have h49 : t.val = 49 := by have := (flush0_4 t).mp hf; have := t.isLt; omega
  obtain rfl : t = tLast := Fin.ext h49
  show (cfg0.win 4).cut (grid0.coords tLast) ((dat0 V c).after 4 tLast) = _
  rw [after0_4]
  obtain ⟨-, -, e0, e1⟩ := out_idx_facts tLast
  have hz' : (fun a => win0_4.index tLast a * main_v17_1.ty.shape.size a) = fun _ => 0 := funext fun a => by
    match a with
    | ⟨0, _⟩ => show win0_4.index tLast 0 * 1 = 0; rw [e0]
    | ⟨1, _⟩ => show win0_4.index tLast 1 * 160 = 0; rw [e1]
  exact (Memref.read_access_unit_zero (Elt Ideal) main_v17_1 hz' (fun a => by rw [congrFun hz' a]; simp) (sqRow V c)).symm

/-- So the sum accumulator's array ends at what its buffer holds after the last point. -/
theorem final_3 (c : Dev nD) : (dat0 V c).arrAt 3 cfg0.N = sumRow V c :=
  (dat0 V c).arrAt_eq_of_cover 3 (sumRow V c) (flushed_3 V c) fun i =>
    ⟨tLast, (flush0_3 tLast).mpr rfl, by
      show i ∈ ((View.whole main_v17_0).slice (win0_3.rect tLast)).set
      rw [View.set_slice_whole, Rect.mem_set_unit]
      obtain ⟨e0, e1, -⟩ := out_idx_facts tLast
      have h0 : (i 0 : Nat) < 1 := (i 0).isLt
      have h1 : (i 1 : Nat) < 160 := (i 1).isLt
      intro a
      match a with
      | ⟨0, _⟩ =>
        show win0_3.index tLast 0 * 1 ≤ (i 0 : Nat) ∧ (i 0 : Nat) < win0_3.index tLast 0 * 1 + win0_3.xsize (grid0.coords tLast) 0
        rw [e0, show win0_3.xsize (grid0.coords tLast) 0 = 1 from by decide +kernel]; omega
      | ⟨1, _⟩ =>
        show win0_3.index tLast 1 * 160 ≤ (i 1 : Nat) ∧ (i 1 : Nat) < win0_3.index tLast 1 * 160 + win0_3.xsize (grid0.coords tLast) 1
        rw [e1, show win0_3.xsize (grid0.coords tLast) 1 = 160 from by decide +kernel]; omega⟩

/-- And the squares accumulator's array likewise. -/
theorem final_4 (c : Dev nD) : (dat0 V c).arrAt 4 cfg0.N = sqRow V c :=
  (dat0 V c).arrAt_eq_of_cover 4 (sqRow V c) (flushed_4 V c) fun i =>
    ⟨tLast, (flush0_4 tLast).mpr rfl, by
      show i ∈ ((View.whole main_v17_1).slice (win0_4.rect tLast)).set
      rw [View.set_slice_whole, Rect.mem_set_unit]
      obtain ⟨-, -, e0, e1⟩ := out_idx_facts tLast
      have h0 : (i 0 : Nat) < 1 := (i 0).isLt
      have h1 : (i 1 : Nat) < 160 := (i 1).isLt
      intro a
      match a with
      | ⟨0, _⟩ =>
        show win0_4.index tLast 0 * 1 ≤ (i 0 : Nat) ∧ (i 0 : Nat) < win0_4.index tLast 0 * 1 + win0_4.xsize (grid0.coords tLast) 0
        rw [e0, show win0_4.xsize (grid0.coords tLast) 0 = 1 from by decide +kernel]; omega
      | ⟨1, _⟩ =>
        show win0_4.index tLast 1 * 160 ≤ (i 1 : Nat) ∧ (i 1 : Nat) < win0_4.index tLast 1 * 160 + win0_4.xsize (grid0.coords tLast) 1
        rw [e1, show win0_4.xsize (grid0.coords tLast) 1 = 160 from by decide +kernel]; omega⟩

/-- After the last grid point the first accumulator holds every column's sum of the hidden layer over all rows. -/
theorem sum_final (c : Dev nD) (j : Fin 160) :
    ((dat0 (F := Ideal) V c).arrAt 3 cfg0.N : S1x160.Idx → EReal) (ix2 (0 : Fin 1) j) = GinSpec.colSum (hid V c) j := by
  rw [final_3 V c, colSum_tiles V c j]
  exact sum_at V c j 49 last_lt

/-- After the last grid point the second accumulator holds every column's sum of squares of the hidden layer. -/
theorem sumsq_final (c : Dev nD) (j : Fin 160) :
    ((dat0 (F := Ideal) V c).arrAt 4 cfg0.N : S1x160.Idx → EReal) (ix2 (0 : Fin 1) j) = GinSpec.colSumSq (hid V c) j := by
  rw [final_4 V c, colSumSq_tiles V c j]
  exact sq_at V c j 49 last_lt

end Run

end Cert.KernelIdeal.Stats

end
-- ==== Proof.KMlp.lean ====
/-
  The second kernel region, read as mathematics.  At every grid point the region takes ten thousand edge rows m(R, ·),
  R = 10000·t + r, and the eight small arrays whole (the two weight matrices, the two bias rows, and the four rows of the
  normalisation: mean, variance, scale, shift).  On its block it forms the hidden entries
  x(r, j) = ∑ₖ m(r, k)·w₁(k, j) + b₁(j), normalises each with the statistics it was handed, scales, shifts and cuts off
  below at zero, y(r, j) = max((x(r, j) − μ(j))·rsqrt(var(j) + ε)·γ(j) + β(j), 0), and sends that through the second
  affine layer, he(r, n) = ∑ⱼ y(r, j)·w₂(j, n) + b₂(n).  Row r of a block depends on row r of the edge rows only, so the
  blocks are the ten-thousand-row slabs of ONE function of the whole arrays; each slab is written back where it was read,
  the fifty slabs tile the five hundred thousand rows, and the message array therefore ends holding that function: row R
  is written at point R / 10000.
-/
import proofs.«158507_j24361054502956_1_alg».proof.Proof.Gen.KernelIdeal.Frame
import proofs.«158507_j24361054502956_1_alg».proof.Proof.Spec
import proofs.«158507_j24361054502956_1_alg».proof.Proof.LibPlainMatmul
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Mlp

/-! ## One block -/

/-- A one-row matrix repeated down the rows, read at row e and column j: the one row's entry in column j. -/
theorem row_repeat {M N : ℕ} (b : FVec Ideal ⟨2, ![1, N]⟩ .f32) (hb : (⟨2, ![1, N]⟩ : Shape).Broadcasts ⟨2, ![M, N]⟩)
    (e : Fin M) (j : Fin N) : broadcastTo (⟨2, ![M, N]⟩ : Shape) b hb (ix2 e j) = b (ix2 (0 : Fin 1) j) := by
  refine broadcastTo_apply b hb (ix2 e j) (ix2 (0 : Fin 1) j) fun a => ?_
  match a with
  | ⟨0, _⟩ => rfl
  | ⟨1, _⟩ =>
    show j.val = if N = 1 then 0 else j.val
    split_ifs with h1
    · have := j.isLt; omega
    · rfl

/-- The first product contracts the columns of the left factor with the rows of the right one … -/
theorem dims_hidden : dot_S10000x160_S160x160_S10000x160_1_0_0_1_n_n = DotDims.plain 10000 160 160 := rfl
/-- … and so does the second. -/
theorem dims_out : dot_S10000x160_S160x128_S10000x128_1_0_0_1_n_n = DotDims.plain 10000 160 128 := rfl

/-- What one grid point stores, at row r and column n of its block, from the blocks it loaded: the two affine layers
    with the normalisation and the cut-off between them.  Each product is a sum over the contracted coordinate, each
    one-row array is read at its only row, the change of format between the layers is the identity, and the threshold
    is the number zero. -/
theorem block_msg (x0 : Vec Ideal S10000x160 .bf16) (x1 x2 x3 x4 x6 : Vec Ideal S1x160 .f32)
    (x5 : Vec Ideal S160x160 .bf16) (x7 : Vec Ideal S160x128 .bf16) (x8 : Vec Ideal S1x128 .f32)
    (r : Fin 10000) (n : Fin 128) :
    k1_pay1 (F := Ideal) (k1_pay2 x0 x5 x6 x1 x2 x3 x4 x7) (k1_pay3 x8) (ix2 r n)
      = GinSpec.lin (GinSpec.normAct (GinSpec.lin (GinSpec.rd2 x0) (GinSpec.rd2 x5) (GinSpec.rdRow x6))
            (GinSpec.rdRow x1) (GinSpec.rdRow x2) (GinSpec.rdRow x3) (GinSpec.rdRow x4))
          (GinSpec.rd2 x7) (GinSpec.rdRow x8) r n := by
  unfold k1_pay1 k1_pay2 k1_pay3
  simp only [shapeCast_self, dims_hidden, dims_out]
  rw [addf_apply, Cert.LibPlainMatmul.matmul_plain_apply, row_repeat]
  unfold GinSpec.lin
  refine congrArg₂ (· + ·) (Finset.sum_congr rfl fun k _ => congrArg₂ (· * ·) ?_ rfl) rfl
  rw [truncf_apply, maximumf_apply, addf_apply, mulf_apply, mulf_apply, subf_apply, addf_apply,
    Cert.LibPlainMatmul.matmul_plain_apply, row_repeat, row_repeat, row_repeat, row_repeat, row_repeat, broadcast_apply]
  simp only [Ideal.ofBits_def, Ideal.ofBits_zero_f32]
  rfl

/-- The message at row r depends on row r of the edge rows only: two arrays of edge rows that agree in one row give
    the same message there. -/
theorem msg_of_row {R R' K H N : ℕ} (X : Fin R → Fin K → EReal) (X' : Fin R' → Fin K → EReal)
    (w1 : Fin K → Fin H → EReal) (b1 mu var gamma beta : Fin H → EReal) (w2 : Fin H → Fin N → EReal) (b2 : Fin N → EReal)
    (r : Fin R) (r' : Fin R') (h : X r = X' r') (n : Fin N) :
    GinSpec.lin (GinSpec.normAct (GinSpec.lin X w1 b1) mu var gamma beta) w2 b2 r n
      = GinSpec.lin (GinSpec.normAct (GinSpec.lin X' w1 b1) mu var gamma beta) w2 b2 r' n := by
  simp only [GinSpec.lin, GinSpec.normAct]
  rw [h]

/-! ## The blocks as parts of the arrays -/

section Arrays

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point t, decided over the fifty points: the edge rows' and the messages' blocks
    are slab t (block row t, block column 0); every small array has one block, at (0, 0). -/
theorem block_indices : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Row r of the edge rows' block at point t is row 10000·t + r of the edge rows. -/
theorem edge_block_row (c : Dev nD) (t : Fin cfg1.N) (r : Fin 10000) (R : Fin 500000) (hR : R.val = 10000 * t.val + r.val) :
    GinSpec.rd2 (iblk1 V c 0 t : S10000x160.Idx → EReal) r = GinSpec.rd2 (V c main_v8 : S500000x160.Idx → EReal) R := by
  obtain ⟨e0, e1⟩ := (block_indices t).1
  funext k
  show (V c main_v8 : S500000x160.Idx → EReal) (((cfg1.win 0).blk t).view.emb (ix2 r k))
    = (V c main_v8 : S500000x160.Idx → EReal) (ix2 R k)
  exact congrArg _ (Shape.idx_ext₂
    (by show win1_0.index t (0 : Fin 2) * 10000 + 1 * r.val = R.val; omega)
    (by show win1_0.index t (1 : Fin 2) * 160 + 1 * k.val = k.val; omega))

/-- The mean's block is the mean row. -/
theorem row_block_1 (c : Dev nD) (t : Fin cfg1.N) :
    GinSpec.rdRow (iblk1 V c 1 t : S1x160.Idx → EReal) = GinSpec.rdRow (V c main_v19 : S1x160.Idx → EReal) := by
  obtain ⟨e0, e1⟩ := (block_indices t).2.1
  funext k
  show (V c main_v19 : S1x160.Idx → EReal) (((cfg1.win 1).blk t).view.emb (ix2 (0 : Fin 1) k))
    = (V c main_v19 : S1x160.Idx → EReal) (ix2 (0 : Fin 1) k)
  exact congrArg _ (Shape.idx_ext₂
    (by show win1_1.index t (0 : Fin 2) * 1 + 1 * 0 = 0; omega)
    (by show win1_1.index t (1 : Fin 2) * 160 + 1 * k.val = k.val; omega))

/-- The variance's block is the variance row. -/
theorem row_block_2 (c : Dev nD) (t : Fin cfg1.N) :
    GinSpec.rdRow (iblk1 V c 2 t : S1x160.Idx → EReal) = GinSpec.rdRow (V c main_v23 : S1x160.Idx → EReal) := by
  obtain ⟨e0, e1⟩ := (block_indices t).2.2.1
  funext k
  show (V c main_v23 : S1x160.Idx → EReal) (((cfg1.win 2).blk t).view.emb (ix2 (0 : Fin 1) k))
    = (V c main_v23 : S1x160.Idx → EReal) (ix2 (0 : Fin 1) k)
  exact congrArg _ (Shape.idx_ext₂
    (by show win1_2.index t (0 : Fin 2) * 1 + 1 * 0 = 0; omega)
    (by show win1_2.index t (1 : Fin 2) * 160 + 1 * k.val = k.val; omega))

/-- The scale's block is the scale row. -/
theorem row_block_3 (c : Dev nD) (t : Fin cfg1.N) :
    GinSpec.rdRow (iblk1 V c 3 t : S1x160.Idx → EReal) = GinSpec.rdRow (V c main_v15 : S1x160.Idx → EReal) := by
  obtain ⟨e0, e1⟩ := (block_indices t).2.2.2.1
  funext k
  show (V c main_v15 : S1x160.Idx → EReal) (((cfg1.win 3).blk t).view.emb (ix2 (0 : Fin 1) k))
    = (V c main_v15 : S1x160.Idx → EReal) (ix2 (0 : Fin 1) k)
  exact congrArg _ (Shape.idx_ext₂
    (by show win1_3.index t (0 : Fin 2) * 1 + 1 * 0 = 0; omega)
    (by show win1_3.index t (1 : Fin 2) * 160 + 1 * k.val = k.val; omega))

/-- The shift's block is the shift row. -/
theorem row_block_4 (c : Dev nD) (t : Fin cfg1.N) :
    GinSpec.rdRow (iblk1 V c 4 t : S1x160.Idx → EReal) = GinSpec.rdRow (V c main_v16 : S1x160.Idx → EReal) := by
  obtain ⟨e0, e1⟩ := (block_indices t).2.2.2.2.1
  funext k
  show (V c main_v16 : S1x160.Idx → EReal) (((cfg1.win 4).blk t).view.emb (ix2 (0 : Fin 1) k))
    = (V c main_v16 : S1x160.Idx → EReal) (ix2 (0 : Fin 1) k)
  exact congrArg _ (Shape.idx_ext₂
    (by show win1_4.index t (0 : Fin 2) * 1 + 1 * 0 = 0; omega)
    (by show win1_4.index t (1 : Fin 2) * 160 + 1 * k.val = k.val; omega))

/-- The first weight matrix's block is the whole matrix. -/
theorem mat_block_5 (c : Dev nD) (t : Fin cfg1.N) :
    GinSpec.rd2 (iblk1 V c 5 t : S160x160.Idx → EReal) = GinSpec.rd2 (V c main_v10 : S160x160.Idx → EReal) := by
  obtain ⟨e0, e1⟩ := (block_indices t).2.2.2.2.2.1
  funext p q
  show (V c main_v10 : S160x160.Idx → EReal) (((cfg1.win 5).blk t).view.emb (ix2 p q))
    = (V c main_v10 : S160x160.Idx → EReal) (ix2 p q)
  exact congrArg _ (Shape.idx_ext₂
    (by show win1_5.index t (0 : Fin 2) * 160 + 1 * p.val = p.val; omega)
    (by show win1_5.index t (1 : Fin 2) * 160 + 1 * q.val = q.val; omega))

/-- The first bias's block is the bias row. -/
theorem row_block_6 (c : Dev nD) (t : Fin cfg1.N) :
    GinSpec.rdRow (iblk1 V c 6 t : S1x160.Idx → EReal) = GinSpec.rdRow (V c main_v13 : S1x160.Idx → EReal) := by
  obtain ⟨e0, e1⟩ := (block_indices t).2.2.2.2.2.2.1
  funext k
  show (V c main_v13 : S1x160.Idx → EReal) (((cfg1.win 6).blk t).view.emb (ix2 (0 : Fin 1) k))
    = (V c main_v13 : S1x160.Idx → EReal) (ix2 (0 : Fin 1) k)
  exact congrArg _ (Shape.idx_ext₂
    (by show win1_6.index t (0 : Fin 2) * 1 + 1 * 0 = 0; omega)
    (by show win1_6.index t (1 : Fin 2) * 160 + 1 * k.val = k.val; omega))

/-- The second weight matrix's block is the whole matrix. -/
theorem mat_block_7 (c : Dev nD) (t : Fin cfg1.N) :
    GinSpec.rd2 (iblk1 V c 7 t : S160x128.Idx → EReal) = GinSpec.rd2 (V c main_v12 : S160x128.Idx → EReal) := by
  obtain ⟨e0, e1⟩ := (block_indices t).2.2.2.2.2.2.2.1
  funext p q
  show (V c main_v12 : S160x128.Idx → EReal) (((cfg1.win 7).blk t).view.emb (ix2 p q))
    = (V c main_v12 : S160x128.Idx → EReal) (ix2 p q)
  exact congrArg _ (Shape.idx_ext₂
    (by show win1_7.index t (0 : Fin 2) * 160 + 1 * p.val = p.val; omega)
    (by show win1_7.index t (1 : Fin 2) * 128 + 1 * q.val = q.val; omega))

/-- The second bias's block is the bias row. -/
theorem row_block_8 (c : Dev nD) (t : Fin cfg1.N) :
    GinSpec.rdRow (iblk1 V c 8 t : S1x128.Idx → EReal) = GinSpec.rdRow (V c main_v14 : S1x128.Idx → EReal) := by
  obtain ⟨e0, e1⟩ := (block_indices t).2.2.2.2.2.2.2.2.1
  funext k
  show (V c main_v14 : S1x128.Idx → EReal) (((cfg1.win 8).blk t).view.emb (ix2 (0 : Fin 1) k))
    = (V c main_v14 : S1x128.Idx → EReal) (ix2 (0 : Fin 1) k)
  exact congrArg _ (Shape.idx_ext₂
    (by show win1_8.index t (0 : Fin 2) * 1 + 1 * 0 = 0; omega)
    (by show win1_8.index t (1 : Fin 2) * 128 + 1 * k.val = k.val; omega))

/-! ## The message array -/

/-- The messages as one function of the nine arrays the region reads. -/
def msgArr (c : Dev nD) : S500000x128.Idx → EReal := fun i =>
  GinSpec.lin (GinSpec.normAct
      (GinSpec.lin (GinSpec.rd2 (V c main_v8 : S500000x160.Idx → EReal)) (GinSpec.rd2 (V c main_v10 : S160x160.Idx → EReal)) (GinSpec.rdRow (V c main_v13 : S1x160.Idx → EReal)))
      (GinSpec.rdRow (V c main_v19 : S1x160.Idx → EReal)) (GinSpec.rdRow (V c main_v23 : S1x160.Idx → EReal))
      (GinSpec.rdRow (V c main_v15 : S1x160.Idx → EReal)) (GinSpec.rdRow (V c main_v16 : S1x160.Idx → EReal)))
    (GinSpec.rd2 (V c main_v12 : S160x128.Idx → EReal)) (GinSpec.rdRow (V c main_v14 : S1x128.Idx → EReal)) (i 0) (i 1)

theorem msgArr_ix2 (c : Dev nD) (R : Fin 500000) (n : Fin 128) :
    msgArr V c (ix2 R n)
      = GinSpec.lin (GinSpec.normAct
            (GinSpec.lin (GinSpec.rd2 (V c main_v8 : S500000x160.Idx → EReal)) (GinSpec.rd2 (V c main_v10 : S160x160.Idx → EReal)) (GinSpec.rdRow (V c main_v13 : S1x160.Idx → EReal)))
            (GinSpec.rdRow (V c main_v19 : S1x160.Idx → EReal)) (GinSpec.rdRow (V c main_v23 : S1x160.Idx → EReal))
            (GinSpec.rdRow (V c main_v15 : S1x160.Idx → EReal)) (GinSpec.rdRow (V c main_v16 : S1x160.Idx → EReal)))
          (GinSpec.rd2 (V c main_v12 : S160x128.Idx → EReal)) (GinSpec.rdRow (V c main_v14 : S1x128.Idx → EReal)) R n := rfl

/-- What point t writes back is slab t of the messages. -/
theorem flushed_eq (c : Dev nD) (t : Fin cfg1.N) :
    (dat1 (F := Ideal) V c).flushed 9 t = ((cfg1.win 9).blk t).view.read (Elt Ideal) (msgArr V c) := by
  show (cfg1.win 9).cut (grid1.coords t) ((dat1 (F := Ideal) V c).after 9 t) = _
  rw [after1_9]
  unfold out1_9
  rw [View.canon_unit_zero zero_offsets]
  simp only [View.ld_unit_zero (S := S10000x160) zero_offsets, View.ld_unit_zero (S := S160x160) zero_offsets,
    View.ld_unit_zero (S := S1x160) zero_offsets, View.ld_unit_zero (S := S160x128) zero_offsets,
    View.ld_unit_zero (S := S1x128) zero_offsets]
  obtain ⟨e0, e1⟩ := (block_indices t).2.2.2.2.2.2.2.2.2
  have ht : t.val < 50 := lt_of_lt_of_eq t.isLt N_1
  funext j
  obtain ⟨r, n, rfl⟩ : ∃ (r : Fin 10000) (n : Fin 128), j = ix2 r n := ⟨j 0, j 1, eq_ix2 j⟩
  have hR : 10000 * t.val + r.val < 500000 := by have := r.isLt; omega
  show k1_pay1 (F := Ideal) (k1_pay2 (iblk1 V c 0 t) (iblk1 V c 5 t) (iblk1 V c 6 t) (iblk1 V c 1 t) (iblk1 V c 2 t)
        (iblk1 V c 3 t) (iblk1 V c 4 t) (iblk1 V c 7 t)) (k1_pay3 (iblk1 V c 8 t)) (ix2 r n)
      = msgArr V c (((cfg1.win 9).blk t).view.emb (ix2 r n))
  rw [block_msg (iblk1 V c 0 t) (iblk1 V c 1 t) (iblk1 V c 2 t) (iblk1 V c 3 t) (iblk1 V c 4 t) (iblk1 V c 6 t)
      (iblk1 V c 5 t) (iblk1 V c 7 t) (iblk1 V c 8 t) r n,
    show ((cfg1.win 9).blk t).view.emb (ix2 r n) = ix2 (⟨10000 * t.val + r.val, hR⟩ : Fin 500000) n from
      Shape.idx_ext₂
        (by show win1_9.index t (0 : Fin 2) * 10000 + 1 * r.val = 10000 * t.val + r.val; omega)
        (by show win1_9.index t (1 : Fin 2) * 128 + 1 * n.val = n.val; omega),
    msgArr_ix2, row_block_1 V c t, row_block_2 V c t, row_block_3 V c t, row_block_4 V c t, mat_block_5 V c t,
    row_block_6 V c t, mat_block_7 V c t, row_block_8 V c t]
  exact msg_of_row _ _ _ _ _ _ _ _ _ _ r ⟨10000 * t.val + r.val, hR⟩ (edge_block_row V c t r ⟨10000 * t.val + r.val, hR⟩ rfl) n

/-- An index of the message array is in point t's slab iff each coordinate is in the slab's range on its axis. -/
theorem mem_block (t : Fin cfg1.N) (i : S500000x128.Idx) :
    i ∈ ((cfg1.win 9).blk t).view.set ↔ ∀ a : Fin 2, win1_9.index t a * S10000x128.size a ≤ (i a).val
      ∧ (i a).val < win1_9.index t a * S10000x128.size a + S10000x128.size a := by
  show i ∈ ((View.whole main_v24).slice (win1_9.rect t)).set ↔ _
  rw [View.set_slice_whole, Rect.mem_set_unit]
  exact Iff.rfl

/-- Every row is in some point's slab: row R in slab R / 10000. -/
theorem covered (i : S500000x128.Idx) :
    ∃ t : Fin cfg1.N, (cfg1.win 9).flush t = true ∧ i ∈ ((cfg1.win 9).blk t).view.set := by
  have hi0 : (i 0).val < 500000 := idx2_lt0 i
  have hi1 : (i 1).val < 128 := idx2_lt1 i
  have hN : cfg1.N = 50 := N_1
  obtain ⟨t, ht⟩ : ∃ t : Fin cfg1.N, t.val = (i 0).val / 10000 := ⟨⟨(i 0).val / 10000, by rw [hN]; omega⟩, rfl⟩
  obtain ⟨e0, e1⟩ := (block_indices t).2.2.2.2.2.2.2.2.2
  refine ⟨t, flush1_9 t, ?_⟩
  rw [mem_block]
  intro a
  match a with
  | ⟨0, _⟩ =>
    show win1_9.index t (0 : Fin 2) * 10000 ≤ (i 0).val ∧ (i 0).val < win1_9.index t (0 : Fin 2) * 10000 + 10000
    omega
  | ⟨1, _⟩ =>
    show win1_9.index t (1 : Fin 2) * 128 ≤ (i 1).val ∧ (i 1).val < win1_9.index t (1 : Fin 2) * 128 + 128
    omega

/-- So the message array ends holding the messages. -/
theorem arr_final (c : Dev nD) : (dat1 (F := Ideal) V c).arrAt 9 cfg1.N = msgArr V c :=
  (dat1 (F := Ideal) V c).arrAt_eq_of_cover 9 (msgArr V c) (fun t _ => flushed_eq V c t) covered

/-- The message array after the region, entry by entry: the two affine layers, with the normalisation by the
    statistics the region was handed and the cut-off between them, of row R of the edge rows. -/
theorem msg_final (c : Dev nD) (R : Fin 500000) (n : Fin 128) :
    ((dat1 (F := Ideal) V c).arrAt 9 cfg1.N : S500000x128.Idx → EReal) (ix2 R n)
      = GinSpec.lin (GinSpec.normAct
            (GinSpec.lin (GinSpec.rd2 (V c main_v8 : S500000x160.Idx → EReal)) (GinSpec.rd2 (V c main_v10 : S160x160.Idx → EReal)) (GinSpec.rdRow (V c main_v13 : S1x160.Idx → EReal)))
            (GinSpec.rdRow (V c main_v19 : S1x160.Idx → EReal)) (GinSpec.rdRow (V c main_v23 : S1x160.Idx → EReal))
            (GinSpec.rdRow (V c main_v15 : S1x160.Idx → EReal)) (GinSpec.rdRow (V c main_v16 : S1x160.Idx → EReal)))
          (GinSpec.rd2 (V c main_v12 : S160x128.Idx → EReal)) (GinSpec.rdRow (V c main_v14 : S1x128.Idx → EReal)) R n := by
  rw [arr_final V c]
  rfl

end Arrays

end Cert.KernelIdeal.Mlp

end
-- ==== Proof.KHost0.lean ====
/-
  The kernel program's host operations before its first region, read at the ideal instance: what the first region
  finds in the buffers those operations wrote.

  Over the extended reals a change of float format is the identity on every entry.  So the narrowed edge rows are the
  edge rows themselves, a narrowed transposed weight matrix reads at (i, j) the weight matrix at (j, i), and a vector
  viewed as a one-row matrix reads at (0, j) the vector at j.
-/
import proofs.«158507_j24361054502956_1_alg».proof.Proof.Gen.KernelIdeal.Frame
import proofs.«158507_j24361054502956_1_alg».proof.Proof.Spec
import proofs.«158507_j24361054502956_1_alg».proof.Proof.KTerms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Host0

/-! ## The three layout facts, over any array of the right shape -/

/-- A matrix transposed and then narrowed reads, at (i, j), the matrix at (j, i): the narrowing changes no entry, and
    the transpose swaps the two coordinates. -/
theorem rd2_narrowed_transpose {a b : ℕ} (x : (⟨2, ![a, b]⟩ : Shape).Idx → EReal)
    (h : (⟨2, ![a, b]⟩ : Shape).Transposes [1, 0] ⟨2, ![b, a]⟩) (hb : FTy.bits .bf16 < FTy.bits .f32) :
    GinSpec.rd2 ((truncf (F := Ideal) (φ := .f32) .bf16 (transpose ⟨2, ![b, a]⟩ [1, 0] x h) hb :
        FVec Ideal ⟨2, ![b, a]⟩ .bf16) : (⟨2, ![b, a]⟩ : Shape).Idx → EReal)
      = GinSpec.rd2T x := by
  funext i j
  exact transpose_ix2_apply x h i j

/-- A vector viewed as a one-row matrix reads, in its row, the vector: entry (0, j) is entry j. -/
theorem rdRow_oneRow {a : ℕ} (x : (⟨1, ![a]⟩ : Shape).Idx → EReal)
    (h : (⟨1, ![a]⟩ : Shape).ShapeCasts ⟨2, ![1, a]⟩) :
    GinSpec.rdRow (shapeCast ⟨2, ![1, a]⟩ x h) = GinSpec.rd1 x := by
  funext j
  exact shapeCast_a_1a_apply x h 0 j

variable (m : (ℓ : Loc nD τ sig) → Buf (Elt Ideal) ℓ) (ρ : Dev nD → PrngReg)

/-! ## The edge rows -/

/-- The first region's row operand is the edge rows: the source node's row followed by the edge's own features; the
    narrowing that follows the concatenation changes no entry. -/
theorem V1_v8 (c : Dev nD) :
    (V1 m ρ c main_v8 : S500000x160.Idx → EReal)
      = Terms.edgeRows (F := Ideal) (m ((c : Thread nD τ).loc main_arg0)) (m ((c : Thread nD τ).loc main_arg1))
          (m ((c : Thread nD τ).loc main_arg2)) := by
  dsimp only [Gen.V1, Gen.W1]
  after_results
  show truncf (F := Ideal) .bf16 (Terms.edgeRows (F := Ideal) (m ((c : Thread nD τ).loc main_arg0))
      (m ((c : Thread nD τ).loc main_arg1)) (m ((c : Thread nD τ).loc main_arg2))) bitsLt_bf16_f32 = _
  funext i
  exact truncf_apply _ _ i

/-! ## The two weight matrices -/

/-- The first layer's weights as the regions read them: entry (i, j) is the argument's entry (j, i). -/
theorem V1_v10 (c : Dev nD) :
    GinSpec.rd2 (V1 m ρ c main_v10 : S160x160.Idx → EReal)
      = GinSpec.rd2T (m ((c : Thread nD τ).loc main_arg4) : S160x160.Idx → EReal) := by
  have e : (V1 m ρ c main_v10 : S160x160.Idx → EReal)
      = truncf (F := Ideal) .bf16 (transpose S160x160 [1, 0] (m ((c : Thread nD τ).loc main_arg4) : S160x160.Idx → EReal)
          transposes_S160x160_S160x160_1_0) bitsLt_bf16_f32 := by
    dsimp only [Gen.V1, Gen.W1]
    after_results
  rw [e]
  exact rd2_narrowed_transpose _ transposes_S160x160_S160x160_1_0 bitsLt_bf16_f32

/-- The second layer's weights as the second region reads them: entry (i, j) is the argument's entry (j, i). -/
theorem V1_v12 (c : Dev nD) :
    GinSpec.rd2 (V1 m ρ c main_v12 : S160x128.Idx → EReal)
      = GinSpec.rd2T (m ((c : Thread nD τ).loc main_arg8) : S128x160.Idx → EReal) := by
  have e : (V1 m ρ c main_v12 : S160x128.Idx → EReal)
      = truncf (F := Ideal) .bf16 (transpose S160x128 [1, 0] (m ((c : Thread nD τ).loc main_arg8) : S128x160.Idx → EReal)
          transposes_S128x160_S160x128_1_0) bitsLt_bf16_f32 := by
    dsimp only [Gen.V1, Gen.W1]
    after_results
  rw [e]
  exact rd2_narrowed_transpose _ transposes_S128x160_S160x128_1_0 bitsLt_bf16_f32

/-! ## The four vectors, each viewed as one row -/

/-- The first layer's bias as a one-row matrix. -/
theorem V1_v13 (c : Dev nD) :
    GinSpec.rdRow (V1 m ρ c main_v13 : S1x160.Idx → EReal)
      = GinSpec.rd1 (m ((c : Thread nD τ).loc main_arg5) : S160.Idx → EReal) := by
  have e : (V1 m ρ c main_v13 : S1x160.Idx → EReal)
      = shapeCast S1x160 (m ((c : Thread nD τ).loc main_arg5) : S160.Idx → EReal) shapeCasts_S160_S1x160 := by
    dsimp only [Gen.V1, Gen.W1]
    after_results
    rfl
  rw [e]
  exact rdRow_oneRow _ shapeCasts_S160_S1x160

/-- The second layer's bias as a one-row matrix. -/
theorem V1_v14 (c : Dev nD) :
    GinSpec.rdRow (V1 m ρ c main_v14 : S1x128.Idx → EReal)
      = GinSpec.rd1 (m ((c : Thread nD τ).loc main_arg9) : S128.Idx → EReal) := by
  have e : (V1 m ρ c main_v14 : S1x128.Idx → EReal)
      = shapeCast S1x128 (m ((c : Thread nD τ).loc main_arg9) : S128.Idx → EReal) shapeCasts_S128_S1x128 := by
    dsimp only [Gen.V1, Gen.W1]
    after_results
    rfl
  rw [e]
  exact rdRow_oneRow _ shapeCasts_S128_S1x128

/-- The normalisation's scale as a one-row matrix. -/
theorem V1_v15 (c : Dev nD) :
    GinSpec.rdRow (V1 m ρ c main_v15 : S1x160.Idx → EReal)
      = GinSpec.rd1 (m ((c : Thread nD τ).loc main_arg6) : S160.Idx → EReal) := by
  have e : (V1 m ρ c main_v15 : S1x160.Idx → EReal)
      = shapeCast S1x160 (m ((c : Thread nD τ).loc main_arg6) : S160.Idx → EReal) shapeCasts_S160_S1x160 := by
    dsimp only [Gen.V1, Gen.W1]
    after_results
    rfl
  rw [e]
  exact rdRow_oneRow _ shapeCasts_S160_S1x160

/-- The normalisation's shift as a one-row matrix. -/
theorem V1_v16 (c : Dev nD) :
    GinSpec.rdRow (V1 m ρ c main_v16 : S1x160.Idx → EReal)
      = GinSpec.rd1 (m ((c : Thread nD τ).loc main_arg7) : S160.Idx → EReal) := by
  have e : (V1 m ρ c main_v16 : S1x160.Idx → EReal)
      = shapeCast S1x160 (m ((c : Thread nD τ).loc main_arg7) : S160.Idx → EReal) shapeCasts_S160_S1x160 := by
    dsimp only [Gen.V1, Gen.W1]
    after_results
    rfl
  rw [e]
  exact rdRow_oneRow _ shapeCasts_S160_S1x160

end Cert.KernelIdeal.Host0

end
-- ==== Proof.KHost12.lean ====
/-
  The host-side arithmetic of the kernel program between and after its two tiled regions, read through the fold of
  buffer contents.

  Between the regions the program turns the two accumulated column moments into statistics: the mean is the first
  moment divided by the number of edges E, and the variance is the second moment divided by E minus the square of the
  mean.  Everything the first region only reads, and everything neither the region nor this stretch touches, holds
  afterwards what it held before.

  After the second region the per-edge messages are summed into their destination rows and cut off below at zero, and
  the edge features are cut off below at zero; both are carried here as whole terms of the launch arrays and of the
  array the second region leaves.
-/
import proofs.«158507_j24361054502956_1_alg».proof.Proof.Gen.KernelIdeal.Frame
import proofs.«158507_j24361054502956_1_alg».proof.Proof.Spec
import proofs.«158507_j24361054502956_1_alg».proof.Proof.KTerms
import proofs.«158507_j24361054502956_1_alg».proof.Proof.LibMlpRows
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Host12

variable (m : (ℓ : Loc nD τ sig) → Buf (Elt Ideal) ℓ) (ρ : Dev nD → PrngReg)

/-! ## What the first region and the stretch after it leave alone -/

/-- An array the first region only reads is never written back: after any number of points it holds its entry
    contents. -/
theorem arr0_input (V : (c : Dev nD) → (b : Ref sig .tc) → Buf (Elt Ideal) ((c : Thread nD τ).loc b)) (c : Dev nD)
    (w : Fin cfg0.W) (h : (cfg0.win w).isOut = false) (n : ℕ) :
    (dat0 (F := Ideal) V c).arrAt w n = (dat0 (F := Ideal) V c).A w :=
  funext fun i => (dat0 (F := Ideal) V c).arrAt_apply_of_forall_not_mem w n i fun t _ hf => by
    rw [Pipeline.Window.flush, h, Bool.false_and] at hf
    exact absurd hf Bool.false_ne_true

/-- The edge rows: read by the first region, written by nothing in between. -/
theorem V3_keep_v8 (c : Dev nD) : V3 m ρ c main_v8 = V1 m ρ c main_v8 := by
  show StableHlo.after hostOps1 (W2 m ρ c) (Proc.devRef .tc main_v8) = W1 m ρ c (Proc.devRef .tc main_v8)
  after_results
  exact (W2_arr m ρ c 0).trans (arr0_input (V1 m ρ) c 0 rfl cfg0.N)

/-- The first layer's weights. -/
theorem V3_keep_v10 (c : Dev nD) : V3 m ρ c main_v10 = V1 m ρ c main_v10 := by
  show StableHlo.after hostOps1 (W2 m ρ c) (Proc.devRef .tc main_v10) = W1 m ρ c (Proc.devRef .tc main_v10)
  after_results
  exact (W2_arr m ρ c 1).trans (arr0_input (V1 m ρ) c 1 rfl cfg0.N)

/-- The first layer's shift. -/
theorem V3_keep_v13 (c : Dev nD) : V3 m ρ c main_v13 = V1 m ρ c main_v13 := by
  show StableHlo.after hostOps1 (W2 m ρ c) (Proc.devRef .tc main_v13) = W1 m ρ c (Proc.devRef .tc main_v13)
  after_results
  exact (W2_arr m ρ c 2).trans (arr0_input (V1 m ρ) c 2 rfl cfg0.N)

/-- The second layer's weights: no array of the first region. -/
theorem V3_keep_v12 (c : Dev nD) : V3 m ρ c main_v12 = V1 m ρ c main_v12 := by
  show StableHlo.after hostOps1 (W2 m ρ c) (Proc.devRef .tc main_v12) = W1 m ρ c (Proc.devRef .tc main_v12)
  after_results
  exact W2_of_ne m ρ c main_v12 (by decide)

/-- The second layer's shift. -/
theorem V3_keep_v14 (c : Dev nD) : V3 m ρ c main_v14 = V1 m ρ c main_v14 := by
  show StableHlo.after hostOps1 (W2 m ρ c) (Proc.devRef .tc main_v14) = W1 m ρ c (Proc.devRef .tc main_v14)
  after_results
  exact W2_of_ne m ρ c main_v14 (by decide)

/-- The normalisation's scale. -/
theorem V3_keep_v15 (c : Dev nD) : V3 m ρ c main_v15 = V1 m ρ c main_v15 := by
  show StableHlo.after hostOps1 (W2 m ρ c) (Proc.devRef .tc main_v15) = W1 m ρ c (Proc.devRef .tc main_v15)
  after_results
  exact W2_of_ne m ρ c main_v15 (by decide)

/-- The normalisation's shift. -/
theorem V3_keep_v16 (c : Dev nD) : V3 m ρ c main_v16 = V1 m ρ c main_v16 := by
  show StableHlo.after hostOps1 (W2 m ρ c) (Proc.devRef .tc main_v16) = W1 m ρ c (Proc.devRef .tc main_v16)
  after_results
  exact W2_of_ne m ρ c main_v16 (by decide)

/-- All seven at once. -/
theorem V3_keep (c : Dev nD) : V3 m ρ c main_v8 = V1 m ρ c main_v8 ∧ V3 m ρ c main_v10 = V1 m ρ c main_v10 ∧ V3 m ρ c main_v12 = V1 m ρ c main_v12 ∧ V3 m ρ c main_v13 = V1 m ρ c main_v13 ∧ V3 m ρ c main_v14 = V1 m ρ c main_v14 ∧ V3 m ρ c main_v15 = V1 m ρ c main_v15 ∧ V3 m ρ c main_v16 = V1 m ρ c main_v16 :=
  ⟨V3_keep_v8 m ρ c, V3_keep_v10 m ρ c, V3_keep_v12 m ρ c, V3_keep_v13 m ρ c, V3_keep_v14 m ρ c, V3_keep_v15 m ρ c,
    V3_keep_v16 m ρ c⟩

/-! ## The statistics -/

/-- The number of edges as a row of 160 equal entries. -/
abbrev nERow : S1x160.Idx → EReal :=
  broadcastInDim S1x160 ![] bcast_S_S1x160 (constant (F := Ideal) S_ .f32 0x48F42400#32)

theorem nERow_apply (i : S1x160.Idx) : nERow i = GinSpec.nE :=
  LibMlpRows.splat_const_apply bcast_S_S1x160 0x48F42400#32 i

/-- The first moment's array at the first region's exit. -/
theorem W2_v17_0 (c : Dev nD) :
    W2 m ρ c (Proc.devRef .tc main_v17_0) = (dat0 (F := Ideal) (V1 m ρ) c).arrAt 3 cfg0.N := W2_arr m ρ c 3

/-- The second moment's array at the first region's exit. -/
theorem W2_v17_1 (c : Dev nD) :
    W2 m ρ c (Proc.devRef .tc main_v17_1) = (dat0 (F := Ideal) (V1 m ρ) c).arrAt 4 cfg0.N := W2_arr m ρ c 4

/-- The mean as a whole term: the first moment over the number of edges. -/
theorem V3_v19_term (c : Dev nD) : (V3 m ρ c main_v19 : S1x160.Idx → EReal) =
    Host.divf (F := Ideal) (s := S1x160) (φ := .f32) ((dat0 (F := Ideal) (V1 m ρ) c).arrAt 3 cfg0.N) nERow := by
  show StableHlo.after hostOps1 (W2 m ρ c) (Proc.devRef .tc main_v19) = _
  after_results
  rw [W2_v17_0]

/-- The variance as a whole term: the second moment over the number of edges, minus the square of the mean. -/
theorem V3_v23_term (c : Dev nD) : (V3 m ρ c main_v23 : S1x160.Idx → EReal) =
    subf (F := Ideal) (s := S1x160) (φ := .f32)
      (Host.divf (F := Ideal) (s := S1x160) (φ := .f32) ((dat0 (F := Ideal) (V1 m ρ) c).arrAt 4 cfg0.N) nERow)
      (mulf (F := Ideal) (s := S1x160) (φ := .f32)
        (Host.divf (F := Ideal) (s := S1x160) (φ := .f32) ((dat0 (F := Ideal) (V1 m ρ) c).arrAt 3 cfg0.N) nERow)
        (Host.divf (F := Ideal) (s := S1x160) (φ := .f32) ((dat0 (F := Ideal) (V1 m ρ) c).arrAt 3 cfg0.N) nERow)) := by
  show StableHlo.after hostOps1 (W2 m ρ c) (Proc.devRef .tc main_v23) = _
  after_results
  rw [W2_v17_0, W2_v17_1]

/-- The mean, column by column. -/
theorem V3_v19 (c : Dev nD) (j : Fin 160) : GinSpec.rdRow (V3 m ρ c main_v19 : S1x160.Idx → EReal) j = Ideal.div (((dat0 (F := Ideal) (V1 m ρ) c).arrAt 3 cfg0.N : S1x160.Idx → EReal) (ix2 (0 : Fin 1) j)) GinSpec.nE := by
  show (V3 m ρ c main_v19 : S1x160.Idx → EReal) (ix2 (0 : Fin 1) j) = _
  rw [V3_v19_term]
  show Ideal.div _ (nERow (ix2 (0 : Fin 1) j)) = _
  rw [nERow_apply]

/-- The variance, column by column. -/
theorem V3_v23 (c : Dev nD) (j : Fin 160) : GinSpec.rdRow (V3 m ρ c main_v23 : S1x160.Idx → EReal) j = Ideal.div (((dat0 (F := Ideal) (V1 m ρ) c).arrAt 4 cfg0.N : S1x160.Idx → EReal) (ix2 (0 : Fin 1) j)) GinSpec.nE - GinSpec.rdRow (V3 m ρ c main_v19 : S1x160.Idx → EReal) j * GinSpec.rdRow (V3 m ρ c main_v19 : S1x160.Idx → EReal) j := by
  rw [V3_v19]
  show (V3 m ρ c main_v23 : S1x160.Idx → EReal) (ix2 (0 : Fin 1) j) = _
  rw [V3_v23_term]
  show Ideal.div _ (nERow (ix2 (0 : Fin 1) j)) - Ideal.div _ (nERow (ix2 (0 : Fin 1) j)) * Ideal.div _ (nERow (ix2 (0 : Fin 1) j)) = _
  rw [nERow_apply]

/-! ## After the second region -/

/-- The edge features hold their launch contents when the last stretch reads them: nothing before or in it writes
    them. -/
theorem W6_arg1 (c : Dev nD) : W6 m ρ c (Proc.devRef .tc main_arg1) = m ((c : Thread nD τ).loc main_arg1) := by
  have h : W7 m ρ c (Proc.devRef .tc main_arg1) = W6 m ρ c (Proc.devRef .tc main_arg1) := by
    show StableHlo.after hostOps2_2 (W6 m ρ c) (Proc.devRef .tc main_arg1) = _
    after_results
  exact h.symm.trans (W7_main_arg1 m ρ c)

/-- The destination indices hold their launch contents at the second region's exit. -/
theorem W4_arg3 (c : Dev nD) : W4 m ρ c (Proc.devRef .tc main_arg3) = m ((c : Thread nD τ).loc main_arg3) := by
  have h7 : W7 m ρ c (Proc.devRef .tc main_arg3) = W6 m ρ c (Proc.devRef .tc main_arg3) := by
    show StableHlo.after hostOps2_2 (W6 m ρ c) (Proc.devRef .tc main_arg3) = _
    after_results
  have h6 : W6 m ρ c (Proc.devRef .tc main_arg3) = W5 m ρ c (Proc.devRef .tc main_arg3) := by
    show StableHlo.after hostOps2_1 (W5 m ρ c) (Proc.devRef .tc main_arg3) = _
    after_results
  have h5 : W5 m ρ c (Proc.devRef .tc main_arg3) = W4 m ρ c (Proc.devRef .tc main_arg3) := by
    show StableHlo.after hostOps2 (W4 m ρ c) (Proc.devRef .tc main_arg3) = _
    after_results
  exact ((h7.trans h6).trans h5).symm.trans (W7_main_arg3 m ρ c)

/-- The messages' array at the second region's exit. -/
theorem W4_v24 (c : Dev nD) :
    W4 m ρ c (Proc.devRef .tc main_v24) = (dat1 (F := Ideal) (V3 m ρ) c).arrAt 9 cfg1.N := W4_arr m ρ c 9

/-- The scattered sums before the cut-off, as a whole term. -/
theorem W5_v27 (c : Dev nD) : (W5 m ρ c (Proc.devRef .tc main_v27) : S50000x128.Idx → EReal) =
    Host.scatterAdd (F := Ideal) (φ := .f32) scatter_S50000x128_S500000x1_S500000x128_1_0_0_1
      (broadcastInDim S50000x128 ![] bcast_S_S50000x128 (Terms.zeroS (F := Ideal)))
      (broadcastInDim S500000x1 ![0] bcast_S500000_S500000x1_0 (m ((c : Thread nD τ).loc main_arg3)))
      ((dat1 (F := Ideal) (V3 m ρ) c).arrAt 9 cfg1.N : S500000x128.Idx → EReal) := by
  show StableHlo.after hostOps2 (W4 m ρ c) (Proc.devRef .tc main_v27) = _
  after_results
  rw [W4_arg3, W4_v24]

/-- The aggregated result: the messages summed into their destination rows, cut off below at zero. -/
theorem W7_v28 (c : Dev nD) : (W7 m ρ c (Proc.devRef .tc main_v28) : S50000x128.Idx → EReal) = Terms.aggregate (F := Ideal) (m ((c : Thread nD τ).loc main_arg3)) ((dat1 (F := Ideal) (V3 m ρ) c).arrAt 9 cfg1.N : S500000x128.Idx → EReal) := by
  have h7 : W7 m ρ c (Proc.devRef .tc main_v28) = W6 m ρ c (Proc.devRef .tc main_v28) := by
    show StableHlo.after hostOps2_2 (W6 m ρ c) (Proc.devRef .tc main_v28) = _
    after_results
  have h6 : (W6 m ρ c (Proc.devRef .tc main_v28) : S50000x128.Idx → EReal) =
      maximumf (F := Ideal) (s := S50000x128) (φ := .f32) (W5 m ρ c (Proc.devRef .tc main_v27))
        (broadcastInDim S50000x128 ![] bcast_S_S50000x128 (Terms.zeroS (F := Ideal))) := by
    show StableHlo.after hostOps2_1 (W5 m ρ c) (Proc.devRef .tc main_v28) = _
    after_results
    simp only [StableHlo.TRef.ofBuf, StableHlo.TRef.toBuf, cast_eq]
  rw [h7, h6, W5_v27]
  rfl

/-- The edge features cut off below at zero. -/
theorem W7_v29 (c : Dev nD) : (W7 m ρ c (Proc.devRef .tc main_v29) : S500000x32.Idx → EReal) = Terms.reluEdges (F := Ideal) (m ((c : Thread nD τ).loc main_arg1)) := by
  have h7 : (W7 m ρ c (Proc.devRef .tc main_v29) : S500000x32.Idx → EReal) =
      maximumf (F := Ideal) (s := S500000x32) (φ := .f32) (W6 m ρ c (Proc.devRef .tc main_arg1))
        (broadcastInDim S500000x32 ![] bcast_S_S500000x32 (Terms.zeroS (F := Ideal))) := by
    show StableHlo.after hostOps2_2 (W6 m ρ c) (Proc.devRef .tc main_v29) = _
    after_results
    simp only [StableHlo.TRef.ofBuf, StableHlo.TRef.toBuf, cast_eq]
  rw [h7, W6_arg1]
  rfl

end Cert.KernelIdeal.Host12

end
-- ==== Proof.KValue.lean ====
/-
  The kernel program's two results as functions of its arguments.

  The program runs two tiled regions between stretches of whole-array operations.  The first region walks the 500000 edge
  rows in 50 tiles and leaves, per hidden column, the sum and the sum of squares of the hidden layer
  x(r, j) = ∑ₖ m(r, k) · w₁(j, k) + b₁(j).  Between the regions the column's mean μ = (∑ x) / E and the moment form of its
  variance (∑ x²) / E − μ² are formed.  The second region walks the tiles again and leaves the message array: the hidden
  layer normalised with those statistics, scaled, shifted, cut off below at zero, and sent through the second affine
  layer.  After it the messages are summed into their destination rows and cut off below at zero; the second result is
  the edge features cut off below at zero.

  Here the pieces are put together: what each region reads (the arrays the stretch before it wrote, read back to the
  arguments), what it leaves, and the run whose final state holds the two results.
-/
import proofs.«158507_j24361054502956_1_alg».proof.Proof.KStats
import proofs.«158507_j24361054502956_1_alg».proof.Proof.KMlp
import proofs.«158507_j24361054502956_1_alg».proof.Proof.KHost0
import proofs.«158507_j24361054502956_1_alg».proof.Proof.KHost12
import proofs.«158507_j24361054502956_1_alg».proof.Proof.KernelRun
import proofs.«158507_j24361054502956_1_alg».proof.Proof.Spec
import proofs.«158507_j24361054502956_1_alg».proof.Proof.KTerms
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The hidden layer of the launched arguments: the edge rows times the transposed first weight matrix, plus the first
    bias. -/
def hidK (c : Dev nD) : Fin 500000 → Fin 160 → EReal :=
  GinSpec.lin (GinSpec.rd2 (Terms.edgeRows (F := Ideal) (m ((c.tc : Thread nD τ).loc main_arg0)) (m ((c.tc : Thread nD τ).loc main_arg1)) (m ((c.tc : Thread nD τ).loc main_arg2)))) (GinSpec.rd2T ((m ((c.tc : Thread nD τ).loc main_arg4)) : S160x160.Idx → EReal)) (GinSpec.rd1 ((m ((c.tc : Thread nD τ).loc main_arg5)) : S160.Idx → EReal))

/-- What the first region reads is that hidden layer: its three input arrays are the edge rows, the transposed weights
    and the bias as one row. -/
theorem hid_V1 (c : Dev nD) : Stats.hid (V1 m ρ) c = hidK m c := by
  unfold Stats.hid hidK
  rw [Host0.V1_v8 m ρ c, Host0.V1_v10 m ρ c, Host0.V1_v13 m ρ c]

/-- The mean the second region is handed: the first region's column sums over the number of rows. -/
theorem mu_V3 (c : Dev nD) : GinSpec.rdRow (V3 m ρ c main_v19 : S1x160.Idx → EReal) = GinSpec.mean (hidK m c) := by
  funext j
  rw [Host12.V3_v19 m ρ c j, Stats.sum_final (V1 m ρ) c j, hid_V1]
  rfl

/-- The variance the second region is handed: the mean of the squares less the square of the mean. -/
theorem var_V3 (c : Dev nD) : GinSpec.rdRow (V3 m ρ c main_v23 : S1x160.Idx → EReal) = GinSpec.varMoment (hidK m c) := by
  funext j
  rw [Host12.V3_v23 m ρ c j, Stats.sumsq_final (V1 m ρ) c j, hid_V1, mu_V3]
  rfl

/-- The message array the second region leaves, entry by entry: the two-layer perceptron of the edge rows, normalised
    with the moment form of the variance. -/
theorem msg_value (c : Dev nD) (R : Fin 500000) (n : Fin 128) :
    ((dat1 (F := Ideal) (V3 m ρ) c).arrAt 9 cfg1.N : S500000x128.Idx → EReal) (ix2 R n)
      = GinSpec.msgMoment (GinSpec.rd2 (Terms.edgeRows (F := Ideal) (m ((c.tc : Thread nD τ).loc main_arg0)) (m ((c.tc : Thread nD τ).loc main_arg1)) (m ((c.tc : Thread nD τ).loc main_arg2)))) (GinSpec.rd2T ((m ((c.tc : Thread nD τ).loc main_arg4)) : S160x160.Idx → EReal))
          (GinSpec.rd1 ((m ((c.tc : Thread nD τ).loc main_arg5)) : S160.Idx → EReal)) (GinSpec.rd1 ((m ((c.tc : Thread nD τ).loc main_arg6)) : S160.Idx → EReal))
          (GinSpec.rd1 ((m ((c.tc : Thread nD τ).loc main_arg7)) : S160.Idx → EReal)) (GinSpec.rd2T ((m ((c.tc : Thread nD τ).loc main_arg8)) : S128x160.Idx → EReal))
          (GinSpec.rd1 ((m ((c.tc : Thread nD τ).loc main_arg9)) : S128.Idx → EReal)) R n := by
  rw [Mlp.msg_final (V3 m ρ) c R n, mu_V3, var_V3]
  obtain ⟨k8, k10, k12, k13, k14, k15, k16⟩ := Host12.V3_keep m ρ c
  rw [k8, k10, k12, k13, k14, k15, k16, Host0.V1_v8 m ρ c, Host0.V1_v10 m ρ c, Host0.V1_v12 m ρ c, Host0.V1_v13 m ρ c,
    Host0.V1_v14 m ρ c, Host0.V1_v15 m ρ c, Host0.V1_v16 m ρ c]
  rfl

/-- The run with its results named: the aggregation of the second region's message array, and the edge features cut off
    below at zero. -/
theorem run : θ_run defs (onTc (τ := τ) (main (F := Ideal))) ⟨m, fun _ => 0, ρ⟩ (fun r => ∀ c : Dev nD,
      r.2.mem ((c.tc : Thread nD τ).loc main_v28)
        = Terms.aggregate (F := Ideal) (m ((c.tc : Thread nD τ).loc main_arg3)) ((dat1 (F := Ideal) (V3 m ρ) c).arrAt 9 cfg1.N : S500000x128.Idx → EReal)
      ∧ r.2.mem ((c.tc : Thread nD τ).loc main_v29) = Terms.reluEdges (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun r h c => ⟨(h c).1.trans (Host12.W7_v28 m ρ c), (h c).2.1.trans (Host12.W7_v29 m ρ c), (h c).2.2⟩)
    (Run.run_results m ρ)

end Cert.KernelIdeal.Value

end
-- ==== Proof.RefTerms.lean ====
/-
  The reference program's values as functions of its argument arrays, one definition per stage: the edge rows (the
  gathered node row followed by the edge's own features), the hidden layer, the column statistics, the normalised and
  cut-off activations, the projected message, and the aggregation (the messages summed into their destination rows,
  then cut off below at zero).
-/
import proofs.«158507_j24361054502956_1_alg».proof.Proof.Gen.ReferenceIdeal

noncomputable section

open Idealize.ShloMosaic

namespace Cert.ReferenceIdeal.Terms

open Cert.ReferenceIdeal Cert.ReferenceIdeal.Gen

variable {F : FTy → Type} [FloatOps F]

/-- The scalar zero. -/
abbrev zeroS : (⟨S_, .f32⟩ : BufTy).Contents (Elt F) := constant S_ .f32 0x00000000#32

/-- The scalar 500000. -/
abbrev nS : (⟨S_, .f32⟩ : BufTy).Contents (Elt F) := constant S_ .f32 0x48F42400#32

/-- A [160] vector laid over every row of a [500000, 160] array. -/
abbrev overRows (v : (⟨S160, .f32⟩ : BufTy).Contents (Elt F)) : (⟨S500000x160, .f32⟩ : BufTy).Contents (Elt F) :=
  broadcastInDim S500000x160 ![0, 1] bcast_S1x160_S500000x160_0_1 (broadcastInDim S1x160 ![1] bcast_S160_S1x160_1 v)

/-- Each edge's source index, a negative one wrapped once by the number of nodes, as a [500000, 1] index array. -/
def wrapped (src : (⟨S500000, .i32⟩ : BufTy).Contents (Elt F)) : (⟨S500000x1, .i32⟩ : BufTy).Contents (Elt F) :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 50000#32))) src)

/-- The edge rows: the source node's row followed by the edge's own features. -/
def edgeRows (h : (⟨S50000x128, .f32⟩ : BufTy).Contents (Elt F)) (e : (⟨S500000x32, .f32⟩ : BufTy).Contents (Elt F))
    (src : (⟨S500000, .i32⟩ : BufTy).Contents (Elt F)) : (⟨S500000x160, .f32⟩ : BufTy).Contents (Elt F) :=
  concatenate S500000x160 1
    [⟨S500000x128, Host.gather gather_S50000x128_S500000x1_S500000x128_1_0_n_n_0_1_1128 h (wrapped src)⟩, ⟨S500000x32, e⟩]
    concatenates_S500000x128_S500000x32_S500000x160_d1

/-- The hidden layer: the edge rows times the transposed first weight matrix, plus the first bias on every row. -/
def hidden (mm : (⟨S500000x160, .f32⟩ : BufTy).Contents (Elt F)) (W1 : (⟨S160x160, .f32⟩ : BufTy).Contents (Elt F))
    (b1 : (⟨S160, .f32⟩ : BufTy).Contents (Elt F)) : (⟨S500000x160, .f32⟩ : BufTy).Contents (Elt F) :=
  addf (Host.dotGeneral dot_S500000x160_S160x160_S500000x160_1_0_0_1_n_n none mm
      (transpose S160x160 [1, 0] W1 transposes_S160x160_S160x160_1_0)) (overRows b1)

/-- The column sums. -/
def colSums (x : (⟨S500000x160, .f32⟩ : BufTy).Contents (Elt F)) : (⟨S160, .f32⟩ : BufTy).Contents (Elt F) :=
  Host.reduceAdd x zeroS reducesTo_S500000x160_S160_d0 h_S_

/-- The column means. -/
def meanOf (x : (⟨S500000x160, .f32⟩ : BufTy).Contents (Elt F)) : (⟨S160, .f32⟩ : BufTy).Contents (Elt F) :=
  Host.divf (colSums x) (broadcastInDim S160 ![] bcast_S_S160 nS)

/-- The entries with their column's mean taken off (the mean formed as a one-row array here). -/
def centred (x : (⟨S500000x160, .f32⟩ : BufTy).Contents (Elt F)) : (⟨S500000x160, .f32⟩ : BufTy).Contents (Elt F) :=
  subf x (broadcastInDim S500000x160 ![0, 1] bcast_S1x160_S500000x160_0_1
    (Host.divf (broadcastInDim S1x160 ![1] bcast_S160_S1x160_1 (colSums x)) (broadcastInDim S1x160 ![] bcast_S_S1x160 nS)))

/-- The divisor of the variance: the number of rows less the (zero) degrees-of-freedom correction. -/
def dof : (⟨S_, .f32⟩ : BufTy).Contents (Elt F) := subf nS (sitofp .f32 (constantI S_ 32 0#32))

/-- The column variances: the mean of the squared centred entries where the divisor is positive (it is), else a
    not-a-number word. -/
def varOf (x : (⟨S500000x160, .f32⟩ : BufTy).Contents (Elt F)) : (⟨S160, .f32⟩ : BufTy).Contents (Elt F) :=
  select (broadcastInDim S160 ![] bcast_S_S160 (cmpf .ogt (dof (F := F)) zeroS))
    (Host.divf (Host.reduceAdd (mulf (centred x) (centred x)) zeroS reducesTo_S500000x160_S160_d0 h_S_)
      (broadcastInDim S160 ![] bcast_S_S160 dof))
    (broadcastInDim S160 ![] bcast_S_S160 (id (constant S_ .f32 0x7FC00000#32)))

/-- Normalised, scaled and shifted. -/
def normed (x : (⟨S500000x160, .f32⟩ : BufTy).Contents (Elt F)) (mu var gamma beta : (⟨S160, .f32⟩ : BufTy).Contents (Elt F)) :
    (⟨S500000x160, .f32⟩ : BufTy).Contents (Elt F) :=
  addf (mulf (mulf (subf x (overRows mu))
      (overRows (Host.rsqrt (addf var (broadcastInDim S160 ![] bcast_S_S160 (constant S_ .f32 0x3727C5AC#32))))))
      (overRows gamma)) (overRows beta)

/-- Cut off below at zero, on the hidden shape. -/
def relu160 (y : (⟨S500000x160, .f32⟩ : BufTy).Contents (Elt F)) : (⟨S500000x160, .f32⟩ : BufTy).Contents (Elt F) :=
  maximumf y (broadcastInDim S500000x160 ![] bcast_S_S500000x160 zeroS)

/-- The second layer: times the transposed second weight matrix, plus the second bias on every row. -/
def project (y : (⟨S500000x160, .f32⟩ : BufTy).Contents (Elt F)) (W2 : (⟨S128x160, .f32⟩ : BufTy).Contents (Elt F))
    (b2 : (⟨S128, .f32⟩ : BufTy).Contents (Elt F)) : (⟨S500000x128, .f32⟩ : BufTy).Contents (Elt F) :=
  addf (Host.dotGeneral dot_S500000x160_S160x128_S500000x128_1_0_0_1_n_n none y
      (transpose S160x128 [1, 0] W2 transposes_S128x160_S160x128_1_0))
    (broadcastInDim S500000x128 ![0, 1] bcast_S1x128_S500000x128_0_1 (broadcastInDim S1x128 ![1] bcast_S128_S1x128_1 b2))

/-- The per-edge message from the edge rows and the parameters. -/
def message (mm : (⟨S500000x160, .f32⟩ : BufTy).Contents (Elt F)) (W1 : (⟨S160x160, .f32⟩ : BufTy).Contents (Elt F))
    (b1 gamma beta : (⟨S160, .f32⟩ : BufTy).Contents (Elt F)) (W2 : (⟨S128x160, .f32⟩ : BufTy).Contents (Elt F))
    (b2 : (⟨S128, .f32⟩ : BufTy).Contents (Elt F)) : (⟨S500000x128, .f32⟩ : BufTy).Contents (Elt F) :=
  project (relu160 (normed (hidden mm W1 b1) (meanOf (hidden mm W1 b1)) (varOf (hidden mm W1 b1)) gamma beta)) W2 b2

/-- The messages summed into their destination rows, then cut off below at zero. -/
def aggregate (dst : (⟨S500000, .i32⟩ : BufTy).Contents (Elt F)) (he : (⟨S500000x128, .f32⟩ : BufTy).Contents (Elt F)) :
    (⟨S50000x128, .f32⟩ : BufTy).Contents (Elt F) :=
  maximumf (Host.scatterAdd scatter_S50000x128_S500000x1_S500000x128_1_0_0_1
      (broadcastInDim S50000x128 ![] bcast_S_S50000x128 zeroS) (broadcastInDim S500000x1 ![0] bcast_S500000_S500000x1_0 dst) he)
    (broadcastInDim S50000x128 ![] bcast_S_S50000x128 zeroS)

/-- The edge features cut off below at zero. -/
def reluEdges (e : (⟨S500000x32, .f32⟩ : BufTy).Contents (Elt F)) : (⟨S500000x32, .f32⟩ : BufTy).Contents (Elt F) :=
  maximumf e (broadcastInDim S500000x32 ![] bcast_S_S500000x32 zeroS)

end Cert.ReferenceIdeal.Terms

end
-- ==== Proof.RefRun.lean ====
/-
  The reference program's run, read back.

  Once its five outlined functions are unfolded where they are called (the variance, which itself calls the
  selection between a value and a fallback, and the three cut-offs at zero), the reference's @main is one straight
  line of seventy-seven host operations. The line is read in two stretches. The first ten operations form the edge
  rows: the source index with a negative entry wrapped once by the number of nodes, the node rows gathered at it,
  and the edge's own features appended. The remaining sixty-seven take the edge rows to the two results: the hidden
  layer, its column statistics, the normalised and cut-off activations, the projected message, the messages summed
  into their destination rows and cut off at zero; and, beside them, the edge features cut off at zero.

  What a buffer holds after a stretch is computed for an arbitrary starting valuation; the two stretches are then
  composed, the second started from what the first leaves. No operation writes an argument's buffer, so each
  argument ends as it began.
-/
import proofs.«158507_j24361054502956_1_alg».proof.Proof.Gen.ReferenceIdeal
import proofs.«158507_j24361054502956_1_alg».proof.Proof.RefTerms
import Idealize.ShloMosaic.Lib.StableHlo.Run
import Idealize.ShloMosaic.Lib.Tactic
import Mathlib.Data.List.Basic

noncomputable section

namespace Cert.ReferenceIdeal.Run

open Cert.ReferenceIdeal Cert.ReferenceIdeal.Gen Idealize.ShloMosaic Idealize.SL.Sem Idealize.ShloMosaic.StableHlo

variable {F : FTy → Type} [FloatOps F]

/-! ## The line of operations -/

/-- The first stretch, ten operations: zero and the node count laid over the index vector, the comparison, the
    shifted index, the choice between the two, the index as a one-column array, the gather, the two blocks side by
    side. -/
abbrev opsA : List (HloOp τ sig (Elt F)) :=
  [ nullary main_c (constantI S_ 32 0#32),
    unary main_c main_v0 (broadcastInDim S500000 ![] bcast_S_S500000),
    binary main_arg2 main_v0 main_v1 (cmpi .slt),
    nullary main_c_0 (constantI S_ 32 50000#32),
    unary main_c_0 main_v2 (broadcastInDim S500000 ![] bcast_S_S500000),
    binary main_arg2 main_v2 main_v3 addi,
    ternary main_v1 main_v3 main_arg2 main_v4 select,
    unary main_v4 main_v5 (broadcastInDim S500000x1 ![0] bcast_S500000_S500000x1_0),
    binary main_arg0 main_v5 main_v6 (fun x i => Host.gather gather_S50000x128_S500000x1_S500000x128_1_0_n_n_0_1_1128 x i),
    binary main_v6 main_arg1 main_v7
      (fun a b => concatenate S500000x160 1 [⟨S500000x128, a⟩, ⟨S500000x32, b⟩] concatenates_S500000x128_S500000x32_S500000x160_d1) ]

/-- The second stretch, sixty-seven operations. In order: the hidden layer (five) and its column means (five); the
    integer zero handed to the variance; the variance's nineteen operations and the selection's three; the
    normalisation, scale and shift (sixteen); the cut-off on the hidden shape (three); the second layer (five); the
    zero array, the destination index as a column, and the scatter-add (four); the two remaining cut-offs (three
    each). -/
abbrev opsB : List (HloOp τ sig (Elt F)) :=
  [ unary main_arg4 main_v8 (transpose S160x160 [1, 0] · transposes_S160x160_S160x160_1_0),
    binary main_v7 main_v8 main_v9 (fun l r => Host.dotGeneral dot_S500000x160_S160x160_S500000x160_1_0_0_1_n_n none l r),
    unary main_arg5 main_v10 (broadcastInDim S1x160 ![1] bcast_S160_S1x160_1),
    unary main_v10 main_v11 (broadcastInDim S500000x160 ![0, 1] bcast_S1x160_S500000x160_0_1),
    binary main_v9 main_v11 main_v12 addf,
    nullary main_cst (constant S_ .f32 0x00000000#32),
    binary main_v12 main_cst main_v13 (fun x v => Host.reduceAdd x v reducesTo_S500000x160_S160_d0 h_S_),
    nullary main_cst_1 (constant S_ .f32 0x48F42400#32),
    unary main_cst_1 main_v14 (broadcastInDim S160 ![] bcast_S_S160),
    binary main_v13 main_v14 main_v15 Host.divf,
    nullary main_c_2 (constantI S_ 32 0#32),
    TRef.nullary main_call0.cst (constant S_ .f32 0x00000000#32),
    TRef.binary (.of main_v12) main_call0.cst main_call0.v0 (fun x v => Host.reduceAdd x v reducesTo_S500000x160_S160_d0 h_S_),
    TRef.unary main_call0.v0 main_call0.v1 (broadcastInDim S1x160 ![1] bcast_S160_S1x160_1),
    TRef.nullary main_call0.cst_0 (constant S_ .f32 0x48F42400#32),
    TRef.unary main_call0.cst_0 main_call0.v2 (broadcastInDim S1x160 ![] bcast_S_S1x160),
    TRef.binary main_call0.v1 main_call0.v2 main_call0.v3 Host.divf,
    TRef.unary main_call0.v3 main_call0.v4 (broadcastInDim S500000x160 ![0, 1] bcast_S1x160_S500000x160_0_1),
    TRef.binary (.of main_v12) main_call0.v4 main_call0.v5 subf,
    TRef.binary main_call0.v5 main_call0.v5 main_call0.v6 mulf,
    TRef.unary (.of main_c_2) main_call0.v7 (sitofp .f32),
    TRef.nullary main_call0.cst_1 (constant S_ .f32 0x48F42400#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S500000x160_S160_d0 h_S_),
    TRef.unary main_call0.v8 main_call0.v10 (broadcastInDim S160 ![] bcast_S_S160),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S160 ![] bcast_S_S160),
    TRef.ternary main_call0.v12 main_call0.v11 main_call0.call0.v1 main_call0.call0.v2
      (fun p a b => select (broadcastInDim S160 ![] bcast_S_S160 p) a b),
    unary main_v15 main_v17 (broadcastInDim S1x160 ![1] bcast_S160_S1x160_1),
    unary main_v17 main_v18 (broadcastInDim S500000x160 ![0, 1] bcast_S1x160_S500000x160_0_1),
    binary main_v12 main_v18 main_v19 subf,
    nullary main_cst_3 (constant S_ .f32 0x3727C5AC#32),
    unary main_cst_3 main_v20 (broadcastInDim S160 ![] bcast_S_S160),
    binary main_v16 main_v20 main_v21 addf,
    unary main_v21 main_v22 Host.rsqrt,
    unary main_v22 main_v23 (broadcastInDim S1x160 ![1] bcast_S160_S1x160_1),
    unary main_v23 main_v24 (broadcastInDim S500000x160 ![0, 1] bcast_S1x160_S500000x160_0_1),
    binary main_v19 main_v24 main_v25 mulf,
    unary main_arg6 main_v26 (broadcastInDim S1x160 ![1] bcast_S160_S1x160_1),
    unary main_v26 main_v27 (broadcastInDim S500000x160 ![0, 1] bcast_S1x160_S500000x160_0_1),
    binary main_v25 main_v27 main_v28 mulf,
    unary main_arg7 main_v29 (broadcastInDim S1x160 ![1] bcast_S160_S1x160_1),
    unary main_v29 main_v30 (broadcastInDim S500000x160 ![0, 1] bcast_S1x160_S500000x160_0_1),
    binary main_v28 main_v30 main_v31 addf,
    TRef.nullary main_call1.cst (constant S_ .f32 0x00000000#32),
    TRef.unary main_call1.cst main_call1.v0 (broadcastInDim S500000x160 ![] bcast_S_S500000x160),
    TRef.binary (.of main_v31) main_call1.v0 main_call1.v1 maximumf,
    unary main_arg8 main_v33 (transpose S160x128 [1, 0] · transposes_S128x160_S160x128_1_0),
    binary main_v32 main_v33 main_v34 (fun l r => Host.dotGeneral dot_S500000x160_S160x128_S500000x128_1_0_0_1_n_n none l r),
    unary main_arg9 main_v35 (broadcastInDim S1x128 ![1] bcast_S128_S1x128_1),
    unary main_v35 main_v36 (broadcastInDim S500000x128 ![0, 1] bcast_S1x128_S500000x128_0_1),
    binary main_v34 main_v36 main_v37 addf,
    nullary main_cst_4 (constant S_ .f32 0x00000000#32),
    unary main_cst_4 main_v38 (broadcastInDim S50000x128 ![] bcast_S_S50000x128),
    unary main_arg3 main_v39 (broadcastInDim S500000x1 ![0] bcast_S500000_S500000x1_0),
    ternary main_v38 main_v39 main_v37 main_v40 (fun x i u => Host.scatterAdd scatter_S50000x128_S500000x1_S500000x128_1_0_0_1 x i u),
    TRef.nullary main_call2.cst (constant S_ .f32 0x00000000#32),
    TRef.unary main_call2.cst main_call2.v0 (broadcastInDim S50000x128 ![] bcast_S_S50000x128),
    TRef.binary (.of main_v40) main_call2.v0 main_call2.v1 maximumf,
    TRef.nullary main_call3.cst (constant S_ .f32 0x00000000#32),
    TRef.unary main_call3.cst main_call3.v0 (broadcastInDim S500000x32 ![] bcast_S_S500000x32),
    TRef.binary (.of main_arg1) main_call3.v0 main_call3.v1 maximumf ]

set_option maxRecDepth 8192 in
/-- @main is the two stretches run one after the other: with the outlined functions unfolded at their calls and
    the sequencing re-associated to the right, both sides are the same chain of single steps. -/
theorem main_eq (c : Dev nD) : main (F := F) c = seq (opsA ++ opsB) := by
  simp only [main, fn_var.body, fn_where.body, fn_relu.body, fn_relu_0.body, fn_relu_1.body, opsA, opsB,
    List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the first stretch touches buffers of the TensorCore only. -/
theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub ..⟩

/-- The same for the second stretch. -/
theorem opsB_sub : (opsB : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..,
    nullary_bufs_sub .., unary_bufs_sub .., binary_bufs_sub ..,
    unary_bufs_sub .., binary_bufs_sub .., unary_bufs_sub .., unary_bufs_sub .., binary_bufs_sub .., nullary_bufs_sub ..,
    unary_bufs_sub .., unary_bufs_sub .., ternary_bufs_sub ..,
    nullary_bufs_sub .., unary_bufs_sub .., binary_bufs_sub ..,
    nullary_bufs_sub .., unary_bufs_sub .., binary_bufs_sub ..⟩

theorem ops_sub : (opsA ++ opsB : List (HloOp τ sig (Elt F))).Forall fun op => op.bufs ⊆ tcRefs τ sig :=
  List.forall_append.2 ⟨opsA_sub, opsB_sub⟩

/-- Every operation of the line determines what it writes: none merely allocates. -/
theorem ops_fresh : ∀ op ∈ (opsA ++ opsB : List (HloOp τ sig (Elt F))), op.fresh = ∅ := by
  intro op h
  rcases List.mem_append.1 h with h | h
  · (repeat (cases h with | head => rfl | tail _ h => ?_)); exact nomatch h
  · (repeat (cases h with | head => rfl | tail _ h => ?_)); exact nomatch h

/-- The contents after two stretches are the second's from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The first stretch -/

/-- The first stretch leaves the edge rows in their buffer. -/
theorem rowsA (V : Valuation τ sig (Elt F)) :
    after opsA V (Proc.devRef .tc main_v7)
      = Terms.edgeRows (V (Proc.devRef .tc main_arg0)) (V (Proc.devRef .tc main_arg1)) (V (Proc.devRef .tc main_arg2)) := by
  unfold Terms.edgeRows Terms.wrapped
  after_results

theorem keepA0 (V : Valuation τ sig (Elt F)) : after opsA V (Proc.devRef .tc main_arg0) = V (Proc.devRef .tc main_arg0) := by after_results
theorem keepA1 (V : Valuation τ sig (Elt F)) : after opsA V (Proc.devRef .tc main_arg1) = V (Proc.devRef .tc main_arg1) := by after_results
theorem keepA2 (V : Valuation τ sig (Elt F)) : after opsA V (Proc.devRef .tc main_arg2) = V (Proc.devRef .tc main_arg2) := by after_results
theorem keepA3 (V : Valuation τ sig (Elt F)) : after opsA V (Proc.devRef .tc main_arg3) = V (Proc.devRef .tc main_arg3) := by after_results
theorem keepA4 (V : Valuation τ sig (Elt F)) : after opsA V (Proc.devRef .tc main_arg4) = V (Proc.devRef .tc main_arg4) := by after_results
theorem keepA5 (V : Valuation τ sig (Elt F)) : after opsA V (Proc.devRef .tc main_arg5) = V (Proc.devRef .tc main_arg5) := by after_results
theorem keepA6 (V : Valuation τ sig (Elt F)) : after opsA V (Proc.devRef .tc main_arg6) = V (Proc.devRef .tc main_arg6) := by after_results
theorem keepA7 (V : Valuation τ sig (Elt F)) : after opsA V (Proc.devRef .tc main_arg7) = V (Proc.devRef .tc main_arg7) := by after_results
theorem keepA8 (V : Valuation τ sig (Elt F)) : after opsA V (Proc.devRef .tc main_arg8) = V (Proc.devRef .tc main_arg8) := by after_results
theorem keepA9 (V : Valuation τ sig (Elt F)) : after opsA V (Proc.devRef .tc main_arg9) = V (Proc.devRef .tc main_arg9) := by after_results

/-! ## The second stretch -/

set_option maxRecDepth 16384 in
set_option maxHeartbeats 4000000 in
/-- The second stretch, from any contents: the first result's buffer ends at the aggregation of the message computed
    from whatever the edge-row buffer held. -/
theorem outB (W : Valuation τ sig (Elt F)) :
    after opsB W (Proc.devRef .tc main_v41)
      = Terms.aggregate (W (Proc.devRef .tc main_arg3))
          (Terms.message (W (Proc.devRef .tc main_v7)) (W (Proc.devRef .tc main_arg4)) (W (Proc.devRef .tc main_arg5))
            (W (Proc.devRef .tc main_arg6)) (W (Proc.devRef .tc main_arg7)) (W (Proc.devRef .tc main_arg8))
            (W (Proc.devRef .tc main_arg9))) := by
  unfold Terms.aggregate Terms.message Terms.project Terms.relu160 Terms.normed Terms.varOf Terms.centred Terms.meanOf
    Terms.colSums Terms.hidden Terms.dof
  after_results_simp <;> rfl

set_option maxRecDepth 16384 in
set_option maxHeartbeats 4000000 in
/-- The second result's buffer ends at the edge features cut off at zero. -/
theorem out1B (W : Valuation τ sig (Elt F)) :
    after opsB W (Proc.devRef .tc main_v42) = Terms.reluEdges (W (Proc.devRef .tc main_arg1)) := by
  unfold Terms.reluEdges
  after_results_simp <;> rfl

theorem keepB0 (W : Valuation τ sig (Elt F)) : after opsB W (Proc.devRef .tc main_arg0) = W (Proc.devRef .tc main_arg0) := by after_results_simp
theorem keepB1 (W : Valuation τ sig (Elt F)) : after opsB W (Proc.devRef .tc main_arg1) = W (Proc.devRef .tc main_arg1) := by after_results_simp
theorem keepB2 (W : Valuation τ sig (Elt F)) : after opsB W (Proc.devRef .tc main_arg2) = W (Proc.devRef .tc main_arg2) := by after_results_simp
theorem keepB3 (W : Valuation τ sig (Elt F)) : after opsB W (Proc.devRef .tc main_arg3) = W (Proc.devRef .tc main_arg3) := by after_results_simp
theorem keepB4 (W : Valuation τ sig (Elt F)) : after opsB W (Proc.devRef .tc main_arg4) = W (Proc.devRef .tc main_arg4) := by after_results_simp
theorem keepB5 (W : Valuation τ sig (Elt F)) : after opsB W (Proc.devRef .tc main_arg5) = W (Proc.devRef .tc main_arg5) := by after_results_simp
theorem keepB6 (W : Valuation τ sig (Elt F)) : after opsB W (Proc.devRef .tc main_arg6) = W (Proc.devRef .tc main_arg6) := by after_results_simp
theorem keepB7 (W : Valuation τ sig (Elt F)) : after opsB W (Proc.devRef .tc main_arg7) = W (Proc.devRef .tc main_arg7) := by after_results_simp
theorem keepB8 (W : Valuation τ sig (Elt F)) : after opsB W (Proc.devRef .tc main_arg8) = W (Proc.devRef .tc main_arg8) := by after_results_simp
theorem keepB9 (W : Valuation τ sig (Elt F)) : after opsB W (Proc.devRef .tc main_arg9) = W (Proc.devRef .tc main_arg9) := by after_results_simp

/-! ## The whole line -/

/-- The first result after the whole line: the aggregation of the message of the edge rows, all over the arguments. -/
theorem out0 (V : Valuation τ sig (Elt F)) :
    after (opsA ++ opsB) V (Proc.devRef .tc main_v41)
      = Terms.aggregate (V (Proc.devRef .tc main_arg3))
          (Terms.message
            (Terms.edgeRows (V (Proc.devRef .tc main_arg0)) (V (Proc.devRef .tc main_arg1)) (V (Proc.devRef .tc main_arg2)))
            (V (Proc.devRef .tc main_arg4)) (V (Proc.devRef .tc main_arg5)) (V (Proc.devRef .tc main_arg6))
            (V (Proc.devRef .tc main_arg7)) (V (Proc.devRef .tc main_arg8)) (V (Proc.devRef .tc main_arg9))) := by
  rw [after_append, outB, rowsA, keepA3, keepA4, keepA5, keepA6, keepA7, keepA8, keepA9]

/-- The second result after the whole line. -/
theorem out1 (V : Valuation τ sig (Elt F)) :
    after (opsA ++ opsB) V (Proc.devRef .tc main_v42) = Terms.reluEdges (V (Proc.devRef .tc main_arg1)) := by
  rw [after_append, out1B, keepA1]

theorem keep0 (V : Valuation τ sig (Elt F)) : after (opsA ++ opsB) V (Proc.devRef .tc main_arg0) = V (Proc.devRef .tc main_arg0) := by
  rw [after_append, keepB0, keepA0]
theorem keep1 (V : Valuation τ sig (Elt F)) : after (opsA ++ opsB) V (Proc.devRef .tc main_arg1) = V (Proc.devRef .tc main_arg1) := by
  rw [after_append, keepB1, keepA1]
theorem keep2 (V : Valuation τ sig (Elt F)) : after (opsA ++ opsB) V (Proc.devRef .tc main_arg2) = V (Proc.devRef .tc main_arg2) := by
  rw [after_append, keepB2, keepA2]
theorem keep3 (V : Valuation τ sig (Elt F)) : after (opsA ++ opsB) V (Proc.devRef .tc main_arg3) = V (Proc.devRef .tc main_arg3) := by
  rw [after_append, keepB3, keepA3]
theorem keep4 (V : Valuation τ sig (Elt F)) : after (opsA ++ opsB) V (Proc.devRef .tc main_arg4) = V (Proc.devRef .tc main_arg4) := by
  rw [after_append, keepB4, keepA4]
theorem keep5 (V : Valuation τ sig (Elt F)) : after (opsA ++ opsB) V (Proc.devRef .tc main_arg5) = V (Proc.devRef .tc main_arg5) := by
  rw [after_append, keepB5, keepA5]
theorem keep6 (V : Valuation τ sig (Elt F)) : after (opsA ++ opsB) V (Proc.devRef .tc main_arg6) = V (Proc.devRef .tc main_arg6) := by
  rw [after_append, keepB6, keepA6]
theorem keep7 (V : Valuation τ sig (Elt F)) : after (opsA ++ opsB) V (Proc.devRef .tc main_arg7) = V (Proc.devRef .tc main_arg7) := by
  rw [after_append, keepB7, keepA7]
theorem keep8 (V : Valuation τ sig (Elt F)) : after (opsA ++ opsB) V (Proc.devRef .tc main_arg8) = V (Proc.devRef .tc main_arg8) := by
  rw [after_append, keepB8, keepA8]
theorem keep9 (V : Valuation τ sig (Elt F)) : after (opsA ++ opsB) V (Proc.devRef .tc main_arg9) = V (Proc.devRef .tc main_arg9) := by
  rw [after_append, keepB9, keepA9]

/-- On every device, for any float values, from any memory with zero counters: every weakly fair execution of the
    reference's @main terminates; the first result is the aggregation, by destination, of the messages computed from the
    edge rows and the parameters; the second is the edge features cut off at zero; every argument is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = Terms.aggregate (m ((c.tc : Thread nD τ).loc main_arg3))
              (Terms.message
                (Terms.edgeRows (m ((c.tc : Thread nD τ).loc main_arg0)) (m ((c.tc : Thread nD τ).loc main_arg1))
                  (m ((c.tc : Thread nD τ).loc main_arg2)))
                (m ((c.tc : Thread nD τ).loc main_arg4)) (m ((c.tc : Thread nD τ).loc main_arg5))
                (m ((c.tc : Thread nD τ).loc main_arg6)) (m ((c.tc : Thread nD τ).loc main_arg7))
                (m ((c.tc : Thread nD τ).loc main_arg8)) (m ((c.tc : Thread nD τ).loc main_arg9)))
      ∧ r.2.mem ((c.tc : Thread nD τ).loc main_v42) = Terms.reluEdges (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c main_v41).trans (out0 _), (h c main_v42).trans (out1 _),
      (h c main_arg0).trans (keep0 _), (h c main_arg1).trans (keep1 _), (h c main_arg2).trans (keep2 _),
      (h c main_arg3).trans (keep3 _), (h c main_arg4).trans (keep4 _), (h c main_arg5).trans (keep5 _),
      (h c main_arg6).trans (keep6 _), (h c main_arg7).trans (keep7 _), (h c main_arg8).trans (keep8 _),
      (h c main_arg9).trans (keep9 _)⟩)
    (run_seq scopedRefs_eq scopedSems_eq defs main (fun _ => opsA ++ opsB) main_eq (fun _ => ops_sub) m ρ
      (fun _ => ops_fresh))

end Cert.ReferenceIdeal.Run

end
-- ==== Proof.LibReduceRead.lean ====
/-
  The host's float sum over some axes of an array, at the extended reals, read as iterated sums over the coordinates:
  the initial value plus the sum of the array's entries whose kept coordinates are the result index.  For a total
  over every axis the sum runs over all coordinates; for a sum down the rows of a two-axis array it runs over the
  row coordinate with the column fixed.  Stated for literal ranks, any extents and any proof of the shape relation.
-/
import Idealize.ShloMosaic.PureOps.Ideal
import Idealize.ShloMosaic.PureOps.Ideal.Laws
import Idealize.ShloMosaic.Lib.ValueIdx
import Mathlib.Algebra.BigOperators.Group.Finset.Basic
import Mathlib.Data.Fintype.BigOperators

noncomputable section

namespace Cert.LibReduceRead

open Idealize.ShloMosaic Idealize.ShloMosaic.ValueIdx

/-- A one-axis index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a one-axis index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A three-axis index set is the product of its three coordinate ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over a three-axis index set is the triple sum over its coordinates. -/
theorem sum_idx3 {M : Type*} [AddCommMonoid M] {a b c : Nat} (f : (⟨3, ![a, b, c]⟩ : Shape).Idx → M) :
    ∑ i, f i = ∑ i : Fin a, ∑ j : Fin b, ∑ k : Fin c, f (ix3 i j k) := by
  rw [← Equiv.sum_comp (idxEquiv3 (a := a) (b := b) (c := c)).symm f, Fintype.sum_prod_type]
  refine Finset.sum_congr rfl (fun i _ => ?_)
  rw [Fintype.sum_prod_type]
  rfl

/-- The total of a one-axis array: the initial value plus the sum of all its entries. -/
theorem reduce_all1 {n : Nat} (h : (⟨1, ![n]⟩ : Shape).ReducesTo [0] ⟨0, ![]⟩) (x : (⟨1, ![n]⟩ : Shape).Idx → EReal)
    (init : EReal) (j : (⟨0, ![]⟩ : Shape).Idx) :
    Ideal.hostReduceAdd h x init j = init + ∑ e : Fin n, x (ix1 e) := by
  rw [Ideal.hostReduceAdd_total h (fun b => b.elim0), sum_idx1]

/-- The sum down the rows of a two-axis array, at column p: the initial value plus the sum over the rows of the
    entries in column p. -/
theorem reduce_rows2 {n k : Nat} (h : (⟨2, ![n, k]⟩ : Shape).ReducesTo [0] ⟨1, ![k]⟩)
    (x : (⟨2, ![n, k]⟩ : Shape).Idx → EReal) (init : EReal) (p : Fin k) :
    Ideal.hostReduceAdd h x init (ix1 p) = init + ∑ e : Fin n, x (ix2 e p) := by
  classical
  unfold Ideal.hostReduceAdd
  have hdrop : ∀ (e : Fin n) (q : Fin k), h.drop (ix2 e q) = ix1 p ↔ q = p := by
    intro e q
    have hv : (h.drop (ix2 e q) 0 : Nat) = q.val := Shape.ReducesTo.drop_apply_val h (ix2 e q) 0
    constructor
    · intro e'
      rw [e'] at hv
      exact Fin.ext hv.symm
    · intro e'
      funext b
      have hb : b = 0 := Subsingleton.elim _ _
      subst hb
      exact Fin.ext (hv.trans (congrArg Fin.val e'))
  rw [Finset.sum_filter, sum_idx2]
  congr 1
  refine Finset.sum_congr rfl (fun e _ => ?_)
  simp only [hdrop]
  rw [Finset.sum_ite_eq' Finset.univ p (fun q => x (ix2 e q)), if_pos (Finset.mem_univ _)]

/-- The total of a two-axis array: the initial value plus the double sum of all its entries. -/
theorem reduce_all2 {n k : Nat} (h : (⟨2, ![n, k]⟩ : Shape).ReducesTo [0, 1] ⟨0, ![]⟩)
    (x : (⟨2, ![n, k]⟩ : Shape).Idx → EReal) (init : EReal) (j : (⟨0, ![]⟩ : Shape).Idx) :
    Ideal.hostReduceAdd h x init j = init + ∑ e : Fin n, ∑ q : Fin k, x (ix2 e q) := by
  rw [Ideal.hostReduceAdd_total h (fun b => b.elim0), sum_idx2]

/-- The total of a three-axis array: the initial value plus the triple sum of all its entries. -/
theorem reduce_all3 {a b c : Nat} (h : (⟨3, ![a, b, c]⟩ : Shape).ReducesTo [0, 1, 2] ⟨0, ![]⟩)
    (x : (⟨3, ![a, b, c]⟩ : Shape).Idx → EReal) (init : EReal) (j : (⟨0, ![]⟩ : Shape).Idx) :
    Ideal.hostReduceAdd h x init j = init + ∑ i : Fin a, ∑ j' : Fin b, ∑ k : Fin c, x (ix3 i j' k) := by
  rw [Ideal.hostReduceAdd_total h (fun b => b.elim0), sum_idx3]

end Cert.LibReduceRead

end
-- ==== Proof.RefValue.lean ====
/-
  The reference's per-edge message read at one index, over the extended reals.

  Each stage of the reference is read at a coordinate and identified with the row-by-row spelling: an affine layer is
  ∑ₖ m(r, k) · w(j, k) + b(j) (the weight matrix enters transposed); a column mean is the column's sum over all rows
  divided by the number of rows; the variance is the sum of the squared centred entries divided by the same number
  (the divisor's positivity test succeeds, so the guarded branch is the one taken); the normalised activation is
  ((x − μ) · rsqrt(var + ε)) · γ + β cut off below at zero; and the message is a second affine layer of that.
-/
import proofs.«158507_j24361054502956_1_alg».proof.Proof.RefTerms
import proofs.«158507_j24361054502956_1_alg».proof.Proof.Spec
import proofs.«158507_j24361054502956_1_alg».proof.Proof.LibMlpRows
import proofs.«158507_j24361054502956_1_alg».proof.Proof.LibPlainMatmul
import proofs.«158507_j24361054502956_1_alg».proof.Proof.LibReduceRead
import Idealize.ShloMosaic.Lib.Pipeline.Value
import Idealize.ShloMosaic.Lib.ValueIdx
import Idealize.ShloMosaic.PureOps.Ideal.Laws

noncomputable section

open Idealize.ShloMosaic Idealize.ShloMosaic.ValueIdx Cert.ReferenceIdeal Cert.ReferenceIdeal.Gen

namespace Cert.ReferenceIdeal.Value

/-! ## Reading the shape operations at a coordinate -/

/-- A transposed two-axis array at (k, j) is the array at (j, k). -/
theorem transpose2_apply {α : Type} {a b : ℕ} (x : (⟨2, ![a, b]⟩ : Shape).Idx → α)
    (h : (⟨2, ![a, b]⟩ : Shape).Transposes [1, 0] ⟨2, ![b, a]⟩) (k : Fin b) (j : Fin a) :
    transpose (⟨2, ![b, a]⟩ : Shape) [1, 0] x h (ix2 k j) = x (ix2 j k) :=
  transpose_apply [1, 0] x h (ix2 k j) (ix2 j k) fun c => by
    match c with
    | ⟨0, _⟩ => rfl
    | ⟨1, _⟩ => rfl

/-- A scalar laid over any shape reads the scalar everywhere. -/
theorem splat_apply {α : Type} {t : Shape} (h : (⟨0, ![]⟩ : Shape).BroadcastsInDim t ![])
    (x : (⟨0, ![]⟩ : Shape).Idx → α) (i : t.Idx) : broadcastInDim t ![] h x i = x ix0 :=
  broadcastInDim_apply ![] h x i ix0 (fun a => a.elim0)

/-- A coordinate below an extent that is one is zero; otherwise it is itself. -/
theorem coord_of_extent {N : ℕ} (j : Fin N) : j.val = if N = 1 then 0 else j.val := by
  split_ifs with h1
  · have := j.isLt; omega
  · rfl

/-- A one-row array laid over M rows reads its own row at every row. -/
theorem overRow_apply {α : Type} {M N : ℕ} (h : (⟨2, ![1, N]⟩ : Shape).BroadcastsInDim ⟨2, ![M, N]⟩ ![0, 1])
    (y : (⟨2, ![1, N]⟩ : Shape).Idx → α) (e : Fin M) (j : Fin N) :
    broadcastInDim (⟨2, ![M, N]⟩ : Shape) ![0, 1] h y (ix2 e j) = y (ix2 (0 : Fin 1) j) :=
  broadcastInDim_apply ![0, 1] h y (ix2 e j) (ix2 (0 : Fin 1) j) fun a => by
    match a with
    | ⟨0, _⟩ => rfl
    | ⟨1, _⟩ => exact coord_of_extent j

/-- A vector made into a one-row array reads the vector along that row. -/
theorem asRow_apply {α : Type} {N : ℕ} (h : (⟨1, ![N]⟩ : Shape).BroadcastsInDim ⟨2, ![1, N]⟩ ![1])
    (v : (⟨1, ![N]⟩ : Shape).Idx → α) (j : Fin N) :
    broadcastInDim (⟨2, ![1, N]⟩ : Shape) ![1] h v (ix2 (0 : Fin 1) j) = v (ix1 j) :=
  broadcastInDim_apply ![1] h v (ix2 (0 : Fin 1) j) (ix1 j) fun a => by
    match a with
    | ⟨0, _⟩ => exact coord_of_extent j

/-- A vector laid over every row of a two-axis array reads the vector at the column. -/
theorem vecOverRows_apply {α : Type} {M N : ℕ} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (e : Fin M) (j : Fin N) :
    broadcastInDim (⟨2, ![M, N]⟩ : Shape) ![0, 1] h₂ (broadcastInDim (⟨2, ![1, N]⟩ : Shape) ![1] h₁ v) (ix2 e j)
      = v (ix1 j) :=
  (overRow_apply h₂ _ e j).trans (asRow_apply h₁ v j)

/-- The host's quotient at a coordinate. -/
theorem hostDivf_apply {s : Shape} (a b : FVec Ideal s .f32) (i : s.Idx) :
    Host.divf a b i = Ideal.div (a i) (b i) := rfl

/-- The host's reciprocal square root at a coordinate. -/
theorem hostRsqrt_apply {s : Shape} (a : FVec Ideal s .f32) (i : s.Idx) :
    Host.rsqrt a i = Ideal.rsqrt (a i) := rfl

/-! ## The constants -/

/-- The number of rows is the real number 500000. -/
private theorem nE_val : GinSpec.nE = ((500000 : ℝ) : EReal) := by
  unfold GinSpec.nE
  simp [Ideal.ofBits, Ideal.ieee, -EReal.coe_mul]; norm_num

/-- The number of rows is positive. -/
theorem nE_pos : (0 : EReal) < GinSpec.nE := by
  rw [nE_val]
  exact_mod_cast (by norm_num : (0 : ℝ) < 500000)

/-! ## The stages over variables -/

/-- An affine layer on the host, the weight matrix entering transposed, at row e and column j. -/
theorem affine_apply {M K N : ℕ} (d : DotDims ⟨2, ![M, K]⟩ ⟨2, ![K, N]⟩ ⟨2, ![M, N]⟩) (hd : d = DotDims.plain M K N)
    (x : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    addf (Host.dotGeneral d none x (transpose (⟨2, ![K, N]⟩ : Shape) [1, 0] W ht))
        (broadcastInDim (⟨2, ![M, N]⟩ : Shape) ![0, 1] h₂ (broadcastInDim (⟨2, ![1, N]⟩ : Shape) ![1] h₁ b)) (ix2 e j)
      = GinSpec.lin (GinSpec.rd2 x) (GinSpec.rd2T W) (GinSpec.rd1 b) e j := by
  subst hd
  rw [Cert.LibMlpRows.host_layer_apply]
  unfold Cert.LibMlpRows.layer GinSpec.lin GinSpec.rd2 GinSpec.rd2T GinSpec.rd1
  congr 1
  refine Finset.sum_congr rfl fun k _ => ?_
  exact congrArg (x (ix2 e k) * ·) (transpose2_apply W ht k j)

/-- The host's sum down the rows from the zero word, at column p: the sum of that column. -/
theorem colsum_apply {n k : ℕ} (h : (⟨2, ![n, k]⟩ : Shape).ReducesTo [0] ⟨1, ![k]⟩)
    (hu : 0 < (⟨0, ![]⟩ : Shape).numel) (x : FVec Ideal ⟨2, ![n, k]⟩ .f32) (p : Fin k) :
    Host.reduceAdd x (constant (F := Ideal) (⟨0, ![]⟩ : Shape) .f32 0x00000000#32) h hu (ix1 p)
      = ∑ e : Fin n, x (ix2 e p) := by
  unfold Host.reduceAdd
  rw [Ideal.hostReduceAdd_def, Cert.LibReduceRead.reduce_rows2, constant_apply, Ideal.ofBits_zero_f32, zero_add]

/-! ## The reference's stages at a coordinate -/

/-- The scalar zero word reads the number zero. -/
theorem zeroS_apply (i : S_.Idx) : Terms.zeroS (F := Ideal) i = 0 := Ideal.ofBits_zero_f32

/-- A vector laid over the 500000 rows reads the vector at the column. -/
theorem overRows_apply (v : (⟨S160, .f32⟩ : BufTy).Contents (Elt Ideal)) (r : Fin 500000) (j : Fin 160) :
    Terms.overRows (F := Ideal) v (ix2 r j) = v (ix1 j) :=
  vecOverRows_apply _ _ v r j

theorem hidden_apply (mm : (⟨S500000x160, .f32⟩ : BufTy).Contents (Elt Ideal))
    (W1 : (⟨S160x160, .f32⟩ : BufTy).Contents (Elt Ideal)) (b1 : (⟨S160, .f32⟩ : BufTy).Contents (Elt Ideal))
    (R : Fin 500000) (j : Fin 160) :
    Terms.hidden (F := Ideal) mm W1 b1 (ix2 R j)
      = GinSpec.lin (GinSpec.rd2 mm) (GinSpec.rd2T W1) (GinSpec.rd1 b1) R j := by
  unfold Terms.hidden
  exact affine_apply _ rfl mm W1 b1 _ _ _ R j

theorem colSums_apply (x : (⟨S500000x160, .f32⟩ : BufTy).Contents (Elt Ideal)) (j : Fin 160) :
    Terms.colSums (F := Ideal) x (ix1 j) = ∑ r : Fin 500000, x (ix2 r j) := by
  unfold Terms.colSums
  exact colsum_apply _ _ x j

theorem meanOf_apply (x : (⟨S500000x160, .f32⟩ : BufTy).Contents (Elt Ideal)) (j : Fin 160) :
    Terms.meanOf (F := Ideal) x (ix1 j) = GinSpec.mean (GinSpec.rd2 x) j := by
  unfold Terms.meanOf
  rw [hostDivf_apply, colSums_apply, Cert.LibMlpRows.splat_const_apply]
  rfl

/-- An entry with its column's mean taken off. -/
theorem centred_apply (x : (⟨S500000x160, .f32⟩ : BufTy).Contents (Elt Ideal)) (r : Fin 500000) (j : Fin 160) :
    Terms.centred (F := Ideal) x (ix2 r j) = x (ix2 r j) - GinSpec.mean (GinSpec.rd2 x) j := by
  unfold Terms.centred
  rw [subf_apply, overRow_apply, hostDivf_apply, asRow_apply, colSums_apply, Cert.LibMlpRows.splat_const_apply]
  rfl

/-- The variance's divisor is the number of rows: the correction taken off is the integer zero. -/
theorem dof_apply (i : S_.Idx) : Terms.dof (F := Ideal) i = GinSpec.nE := by
  show Ideal.ofBits .f32 0x48F42400#32 - (((0#32 : BitVec 32).toInt : ℝ) : EReal) = GinSpec.nE
  rw [show (0#32 : BitVec 32).toInt = 0 from rfl, Int.cast_zero, EReal.coe_zero, sub_zero]
  rfl

theorem varOf_apply (x : (⟨S500000x160, .f32⟩ : BufTy).Contents (Elt Ideal)) (j : Fin 160) :
    Terms.varOf (F := Ideal) x (ix1 j) = GinSpec.varCentred (GinSpec.rd2 x) j := by
  unfold Terms.varOf
  rw [select_apply, splat_apply, cmpf_apply, dof_apply, zeroS_apply, Ideal.cmpf_def]
  have h1 : Ideal.cmp .ogt GinSpec.nE 0 = 1 := by
    unfold Ideal.cmp
    simp [nE_pos]
  rw [h1]
  show Host.divf _ _ (ix1 j) = _
  rw [hostDivf_apply, colsum_apply, splat_apply, dof_apply]
  unfold GinSpec.varCentred
  refine congrArg (Ideal.div · GinSpec.nE) ?_
  refine Finset.sum_congr rfl fun r _ => ?_
  rw [mulf_apply, centred_apply]
  rfl

/-- The normalised, scaled and shifted entry. -/
theorem normed_apply (x : (⟨S500000x160, .f32⟩ : BufTy).Contents (Elt Ideal))
    (mu var gamma beta : (⟨S160, .f32⟩ : BufTy).Contents (Elt Ideal)) (r : Fin 500000) (j : Fin 160) :
    Terms.normed (F := Ideal) x mu var gamma beta (ix2 r j)
      = (x (ix2 r j) - mu (ix1 j)) * Ideal.rsqrt (var (ix1 j) + GinSpec.eps) * gamma (ix1 j) + beta (ix1 j) := by
  unfold Terms.normed
  rw [addf_apply, mulf_apply, mulf_apply, subf_apply, overRows_apply, overRows_apply, overRows_apply,
    overRows_apply, hostRsqrt_apply, addf_apply, Cert.LibMlpRows.splat_const_apply]
  rfl

/-- The activation as a function of row and column. -/
theorem rd2_act (x : (⟨S500000x160, .f32⟩ : BufTy).Contents (Elt Ideal))
    (mu var gamma beta : (⟨S160, .f32⟩ : BufTy).Contents (Elt Ideal)) :
    GinSpec.rd2 (Terms.relu160 (F := Ideal) (Terms.normed x mu var gamma beta))
      = GinSpec.normAct (GinSpec.rd2 x) (GinSpec.rd1 mu) (GinSpec.rd1 var) (GinSpec.rd1 gamma) (GinSpec.rd1 beta) := by
  funext r j
  unfold GinSpec.rd2 Terms.relu160
  rw [maximumf_apply, normed_apply, Cert.LibMlpRows.splat_const_apply, Ideal.ofBits_zero_f32]
  rfl

theorem project_apply (y : (⟨S500000x160, .f32⟩ : BufTy).Contents (Elt Ideal))
    (W2 : (⟨S128x160, .f32⟩ : BufTy).Contents (Elt Ideal)) (b2 : (⟨S128, .f32⟩ : BufTy).Contents (Elt Ideal))
    (R : Fin 500000) (n : Fin 128) :
    Terms.project (F := Ideal) y W2 b2 (ix2 R n)
      = GinSpec.lin (GinSpec.rd2 y) (GinSpec.rd2T W2) (GinSpec.rd1 b2) R n := by
  unfold Terms.project
  exact affine_apply _ rfl y W2 b2 _ _ _ R n

theorem message_apply (mm : (⟨S500000x160, .f32⟩ : BufTy).Contents (Elt Ideal))
    (W1 : (⟨S160x160, .f32⟩ : BufTy).Contents (Elt Ideal))
    (b1 gamma beta : (⟨S160, .f32⟩ : BufTy).Contents (Elt Ideal))
    (W2 : (⟨S128x160, .f32⟩ : BufTy).Contents (Elt Ideal)) (b2 : (⟨S128, .f32⟩ : BufTy).Contents (Elt Ideal))
    (R : Fin 500000) (n : Fin 128) :
    Terms.message (F := Ideal) mm W1 b1 gamma beta W2 b2 (ix2 R n)
      = GinSpec.msgCentred (GinSpec.rd2 mm) (GinSpec.rd2T W1) (GinSpec.rd1 b1) (GinSpec.rd1 gamma) (GinSpec.rd1 beta)
          (GinSpec.rd2T W2) (GinSpec.rd1 b2) R n := by
  have hx : GinSpec.rd2 (Terms.hidden (F := Ideal) mm W1 b1)
      = GinSpec.lin (GinSpec.rd2 mm) (GinSpec.rd2T W1) (GinSpec.rd1 b1) := by
    funext r j; exact hidden_apply mm W1 b1 r j
  have hmu : ∀ x : (⟨S500000x160, .f32⟩ : BufTy).Contents (Elt Ideal),
      GinSpec.rd1 (Terms.meanOf (F := Ideal) x) = GinSpec.mean (GinSpec.rd2 x) := fun x => by
    funext j; exact meanOf_apply x j
  have hvar : ∀ x : (⟨S500000x160, .f32⟩ : BufTy).Contents (Elt Ideal),
      GinSpec.rd1 (Terms.varOf (F := Ideal) x) = GinSpec.varCentred (GinSpec.rd2 x) := fun x => by
    funext j; exact varOf_apply x j
  unfold Terms.message GinSpec.msgCentred
  rw [project_apply, rd2_act, hmu, hvar, hx]

end Cert.ReferenceIdeal.Value

end
-- ==== Proof.SpecLaws.lean ====
/-
  The two spellings of a column's variance agree on real entries.

  Write E for the number of rows, S = ∑ᵣ v(r) and Q = ∑ᵣ v(r)² for the two moments of a real column v, and μ = S / E
  for its mean.  Expanding the square term by term,
      ∑ᵣ (v(r) − μ)² = Q − 2 μ S + E μ²,
  and since S = E μ the right-hand side is Q − E μ², so that (∑ᵣ (v(r) − μ)²) / E = Q / E − μ².

  Over the extended reals the same identity is reached by naming a real witness for every entry and moving the
  embedding of the reals outwards through products, differences, finite sums and the division by the (nonzero, real)
  row count; what is left is the identity above between two real numbers.  An affine layer of real data with real
  weights is again real, which carries the identity to the hidden activations of the perceptron.
-/
import proofs.«158507_j24361054502956_1_alg».proof.Proof.Spec
import Mathlib.Data.EReal.Basic
import Mathlib.Data.EReal.Operations
import Mathlib.Algebra.BigOperators.Group.Finset.Basic
import Mathlib.Algebra.BigOperators.Ring.Finset
import Mathlib.Tactic.Ring
import Mathlib.Tactic.FieldSimp
import Mathlib.Tactic.NormNum

noncomputable section

open Idealize.ShloMosaic

namespace Cert.GinSpec

/-! ## The row count -/

/-- The pattern has sign 0, exponent field 145 and fraction field 7611392, so it denotes
    (2²³ + 7611392) · 2^(145 − 127 − 23) = 16000000 / 32 = 500000. -/
theorem nE_eq : nE = ((500000 : ℝ) : EReal) := by
  unfold nE
  simp [Ideal.ofBits, Ideal.ieee, -EReal.coe_mul]; norm_num

/-! ## The embedding of the reals and finite sums -/

/-- The embedding of the reals into the extended reals commutes with a finite sum. -/
theorem coe_finsum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-! ## An affine layer keeps entries real -/

theorem lin_isReal {R K N : ℕ} (x : Fin R → Fin K → EReal) (w : Fin K → Fin N → EReal) (b : Fin N → EReal)
    (hx : ∀ r k, IsReal (x r k)) (hw : ∀ k n, IsReal (w k n)) (hb : ∀ n, IsReal (b n)) :
    ∀ r n, IsReal (lin x w b r n) := by
  intro r n
  choose vx hvx using hx
  choose vw hvw using hw
  choose vb hvb using hb
  refine ⟨(∑ k : Fin K, vx r k * vw k n) + vb n, ?_⟩
  simp only [lin, hvx, hvw, hvb]
  rw [EReal.coe_add, coe_finsum]
  simp only [EReal.coe_mul]

/-! ## The identity between real numbers -/

/-- For a real family v over the 500000 rows: (∑ v²) / E − μ² = (∑ (v − μ)²) / E with μ = (∑ v) / E, the division
    written as the product with 1 / E. -/
theorem real_var_identity (v : Fin 500000 → ℝ) :
    (∑ r : Fin 500000, v r * v r) * (1 / 500000 : ℝ)
        - ((∑ r : Fin 500000, v r) * (1 / 500000 : ℝ)) * ((∑ r : Fin 500000, v r) * (1 / 500000 : ℝ))
      = (∑ r : Fin 500000, (v r - (∑ r : Fin 500000, v r) * (1 / 500000 : ℝ))
            * (v r - (∑ r : Fin 500000, v r) * (1 / 500000 : ℝ))) * (1 / 500000 : ℝ) := by
  generalize hS : (∑ r : Fin 500000, v r) = S
  generalize hQ : (∑ r : Fin 500000, v r * v r) = Q
  have hexp : (∑ r : Fin 500000, (v r - S * (1 / 500000 : ℝ)) * (v r - S * (1 / 500000 : ℝ)))
      = Q - 2 * (S * (1 / 500000 : ℝ)) * S + 500000 * ((S * (1 / 500000 : ℝ)) * (S * (1 / 500000 : ℝ))) := by
    have h1 : ∀ r : Fin 500000, (v r - S * (1 / 500000 : ℝ)) * (v r - S * (1 / 500000 : ℝ))
        = v r * v r - 2 * (S * (1 / 500000 : ℝ)) * v r + (S * (1 / 500000 : ℝ)) * (S * (1 / 500000 : ℝ)) := by
      intro r; ring
    rw [Finset.sum_congr rfl (fun r _ => h1 r), Finset.sum_add_distrib, Finset.sum_sub_distrib,
      ← Finset.mul_sum, Finset.sum_const, Finset.card_univ, Fintype.card_fin, nsmul_eq_mul, hS, hQ]
    push_cast
    ring
  rw [hexp]
  ring

/-! ## The two variances -/

theorem varMoment_eq_varCentred {N : ℕ} (x : Fin 500000 → Fin N → EReal) (hx : ∀ r j, IsReal (x r j)) :
    varMoment x = varCentred x := by
  choose v hv using hx
  funext j
  have hE : (500000 : ℝ) ≠ 0 := by norm_num
  have hmean : mean x j = (((∑ r : Fin 500000, v r j) * (1 / 500000 : ℝ) : ℝ) : EReal) := by
    simp only [mean, colSum, hv, nE_eq]
    rw [Ideal.div_coe hE, ← coe_finsum, ← EReal.coe_mul]
  simp only [varMoment, varCentred, colSumSq, hmean]
  simp only [hv, nE_eq]
  rw [Ideal.div_coe hE, Ideal.div_coe hE]
  simp only [← EReal.coe_mul, ← EReal.coe_sub, ← coe_finsum]
  exact congrArg _ (real_var_identity (fun r => v r j))

/-! ## The messages -/

theorem msgMoment_eq_msgCentred (m : Fin 500000 → Fin 160 → EReal) (w1 : Fin 160 → Fin 160 → EReal)
    (b1 gamma beta : Fin 160 → EReal) (w2 : Fin 160 → Fin 128 → EReal) (b2 : Fin 128 → EReal)
    (hm : ∀ r k, IsReal (m r k)) (hw1 : ∀ k j, IsReal (w1 k j)) (hb1 : ∀ j, IsReal (b1 j)) :
    msgMoment m w1 b1 gamma beta w2 b2 = msgCentred m w1 b1 gamma beta w2 b2 := by
  unfold msgMoment msgCentred
  rw [varMoment_eq_varCentred (lin m w1 b1) (lin_isReal m w1 b1 hm hw1 hb1)]

end Cert.GinSpec

end
-- ==== Proof.PreReal.lean ====
/-
  From "every float input is finite" to "every entry is a real number".

  The precondition is a conjunction, one conjunct per float argument, of "every entry x of the array has |x| < +∞".  In
  the extended reals |x| is max x (−x), which is +∞ at both infinities and a real number otherwise, so |x| < +∞ says
  exactly that x is a real number.  The edge rows are made of entries of the node array (at whichever row the source
  index picks) followed by entries of the edge array, so every entry of an edge row is real once those two arrays are.
-/
import proofs.«158507_j24361054502956_1_alg».proof.Defs
import proofs.«158507_j24361054502956_1_alg».proof.Proof.Gen.KernelIdeal
import proofs.«158507_j24361054502956_1_alg».proof.Proof.Gen.Pre_finite_inputs
import proofs.«158507_j24361054502956_1_alg».proof.Proof.Spec
import proofs.«158507_j24361054502956_1_alg».proof.Proof.KTerms
import proofs.«158507_j24361054502956_1_alg».proof.Proof.LibConcatRows
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.KernelIdeal.PreReal

open Cert.KernelIdeal Cert.KernelIdeal.Gen

/-- The index set of a scalar has one element. -/
instance : Subsingleton (⟨0, ![]⟩ : Shape).Idx := ⟨fun _ _ => funext fun d => d.elim0⟩

/-- An extended real whose absolute value max x (−x) lies strictly below +∞ is a real number: at either infinity the
    absolute value is +∞ itself. -/
theorem isReal_of_abs_lt (x : Ideal .f32)
    (h : FloatOps.cmpf (F := Ideal) (φ := .f32) .olt (FloatOps.hostAbsf x) (FloatOps.ofBits .f32 0x7F800000#32) = 1#1) :
    GinSpec.IsReal x := by
  have htop : Ideal.ofBits .f32 0x7F800000#32 = (⊤ : EReal) := by simp [Ideal.ofBits, Ideal.ieee]
  rw [Ideal.hostAbsf_def, Ideal.absf_def, Ideal.cmpf_def, Ideal.ofBits_def, htop] at h
  induction x using EReal.rec with
  | bot => simp [Ideal.cmp] at h
  | coe r => exact ⟨r, rfl⟩
  | top => simp [Ideal.cmp] at h

/-- "All entries have |x| < +∞", as a conjunction over the whole array that came out true, makes every entry real. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1)
    (h : Host.reduce IntOp.andi
        (cmpf .olt (Host.absf x) (broadcastInDim s ![] hb (constant ⟨0, ![]⟩ .f32 0x7F800000#32))) init hr hu ix0 = 1#1) :
    ∀ i, GinSpec.IsReal (x i) := fun i =>
  isReal_of_abs_lt (x i) (Host.reduce_andi_all _ init hr hu ix0 h i)

/-- The precondition over arbitrary arrays: the conjunction is true only if each conjunct is, and the conjuncts of the
    node array, the edge array, the first layer's weights and its bias make those four arrays real. -/
theorem fn_real [Cert.Pre_finite_inputs.Facts]
    (a0 : FVec Ideal S50000x128 .f32) (a1 : FVec Ideal S500000x32 .f32) (a2 a3 : IVec S500000 32)
    (a4 : FVec Ideal S160x160 .f32) (a5 a6 a7 : FVec Ideal S160 .f32) (a8 : FVec Ideal S128x160 .f32)
    (a9 : FVec Ideal S128 .f32)
    (h : Cert.Pre_finite_inputs.fn (F := Ideal) a0 a1 a2 a3 a4 a5 a6 a7 a8 a9 = fun _ => 1#1) :
    (∀ i, GinSpec.IsReal (a0 i)) ∧ (∀ i, GinSpec.IsReal (a1 i)) ∧ (∀ i, GinSpec.IsReal (a4 i))
      ∧ (∀ i, GinSpec.IsReal (a5 i)) := by
  have h0 := congrFun h ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨h3, h7⟩, h12⟩, h17⟩, _⟩, _⟩, _⟩, _⟩ := h0
  exact ⟨all_real a0 _ _ _ _ h3, all_real a1 _ _ _ _ h7, all_real a4 _ _ _ _ h12, all_real a5 _ _ _ _ h17⟩

/-- Under the precondition the node array, the edge array, the first layer's weights and its bias are real. -/
theorem real_of_pre [hPre : Cert.Pre_finite_inputs.Facts] (m : (ℓ : Loc nD τ sig) → Buf (Elt Ideal) ℓ)
    (hpre : Cert.Pre_KernelIdeal m) (c : Dev nD) :
      (∀ i, GinSpec.IsReal ((m ((c.tc : Thread nD τ).loc main_arg0) : S50000x128.Idx → EReal) i))
    ∧ (∀ i, GinSpec.IsReal ((m ((c.tc : Thread nD τ).loc main_arg1) : S500000x32.Idx → EReal) i))
    ∧ (∀ i, GinSpec.IsReal ((m ((c.tc : Thread nD τ).loc main_arg4) : S160x160.Idx → EReal) i))
    ∧ (∀ i, GinSpec.IsReal ((m ((c.tc : Thread nD τ).loc main_arg5) : S160.Idx → EReal) i)) :=
  fn_real _ _ _ _ _ _ _ _ _ _ (hpre c)

/-- Every entry of an edge row is real: in the first 128 columns it is an entry of the node array (the gather reads the
    node array at some index, whatever the source index is), in the last 32 an entry of the edge array. -/
theorem edgeRows_real (h : S50000x128.Idx → EReal) (e : S500000x32.Idx → EReal)
    (src : (⟨S500000, .i32⟩ : BufTy).Contents (Elt Ideal))
    (hh : ∀ i, GinSpec.IsReal (h i)) (he : ∀ i, GinSpec.IsReal (e i)) :
    ∀ (r : Fin 500000) (k : Fin 160), GinSpec.IsReal (GinSpec.rd2 (Terms.edgeRows (F := Ideal) h e src) r k) := by
  intro r k
  have key : GinSpec.rd2 (Terms.edgeRows (F := Ideal) h e src) r k
      = LibConcatRows.catRow2 (A := 128) (B := 32)
          (fun i => Host.gather gather_S50000x128_S500000x1_S500000x128_1_0_n_n_0_1_1128 h (Terms.wrapped src) (ix2 r i))
          (fun i => e (ix2 r i)) k :=
    LibConcatRows.concat2_rows (M := 500000) (A := 128) (B := 32) _ e
      concatenates_S500000x128_S500000x32_S500000x160_d1 r k
  rw [key]
  unfold LibConcatRows.catRow2
  split_ifs with hk
  · exact hh _
  · exact he _

end Cert.KernelIdeal.PreReal

end
-- ==== Proof.lean ====
/-
  The certificate: a tiled kernel for one round of message passing against its plain reference, over the extended reals.

  Both programs form the edge rows (the source node's row followed by the edge's own features), send them through an
  affine layer, normalise every hidden column with its mean and variance over all 500000 edges, scale, shift, cut off
  below at zero, send the result through a second affine layer, sum the messages into their destination rows, and cut
  off below at zero; the second result is the edge features cut off below at zero.

  They differ in one place.  The kernel accumulates, tile by tile, the sum and the sum of squares of each hidden column
  and takes the variance as (∑ x²) / E − μ²; the reference subtracts the mean first and takes (∑ (x − μ)²) / E.  Sums
  over the extended reals may be regrouped freely, so the tiling itself changes nothing; the two variance forms agree
  exactly when the hidden entries are real numbers, which they are because the precondition makes the node array, the
  edge features, the first weights and the first bias real, the gather only ever reads entries of the node array, and an
  affine layer of real data is real.  Everything after the variance is the same operations on equal values.

  The three frames: the kernel's two are the generated ones; the reference's is its run with the results dropped.  The
  ideal pass rewrote nothing, so the preservation claim is trivial.
-/
import proofs.«158507_j24361054502956_1_alg».proof.Defs
import proofs.«158507_j24361054502956_1_alg».proof.Proof.Gen.Kernel.Frame
import proofs.«158507_j24361054502956_1_alg».proof.Proof.Gen.KernelIdeal.Frame
import proofs.«158507_j24361054502956_1_alg».proof.Proof.Gen.ReferenceIdeal
import proofs.«158507_j24361054502956_1_alg».proof.Proof.Gen.Pre_finite_inputs
import proofs.«158507_j24361054502956_1_alg».proof.Proof.KValue
import proofs.«158507_j24361054502956_1_alg».proof.Proof.RefRun
import proofs.«158507_j24361054502956_1_alg».proof.Proof.RefValue
import proofs.«158507_j24361054502956_1_alg».proof.Proof.SpecLaws
import proofs.«158507_j24361054502956_1_alg».proof.Proof.PreReal
import Idealize.ShloMosaic.Adequacy
import Idealize.ShloMosaic.Init

noncomputable section

open Idealize.ShloMosaic Idealize.ShloMosaic.TcCoe Idealize.SL.Sem
open Idealize.ShloMosaic.Pipeline (Dat)

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Run.run (F := Ideal) m ρ)

/-- The ideal pass rewrote nothing. -/
theorem preserves : Cert.preserves_Kernel_KernelIdeal := trivial

/-- Both programs end with the aggregation of the same message array and the same cut-off edge features: the kernel's
    message array is the perceptron with the moment form of the variance, the reference's the centred form, and on the
    real entries the precondition grants the two forms are one number. -/
theorem algebraic : Cert.algebraic_KernelIdeal_ReferenceIdeal := by
  intro m ρ m' ρ' hpre hagree
  refine ⟨fun c => Cert.KernelIdeal.Terms.aggregate (F := Ideal) (m ((c.tc : Thread Cert.KernelIdeal.nD Cert.KernelIdeal.τ).loc Cert.KernelIdeal.main_arg3))
      ((Cert.KernelIdeal.Gen.dat1 (F := Ideal) (Cert.KernelIdeal.Gen.V3 m ρ) c).arrAt 9 Cert.KernelIdeal.cfg1.N : Cert.KernelIdeal.S500000x128.Idx → EReal),
    fun c => Cert.KernelIdeal.Terms.reluEdges (F := Ideal) (m ((c.tc : Thread Cert.KernelIdeal.nD Cert.KernelIdeal.τ).loc Cert.KernelIdeal.main_arg1)), Cert.KernelIdeal.Value.run m ρ, ?_⟩
  refine (θ_run Cert.ReferenceIdeal.defs _ _).mono (fun r h c => ⟨(h c).1.trans ?_, (h c).2.1.trans ?_, (h c).2.2⟩)
    (Cert.ReferenceIdeal.Run.run (F := Ideal) m' ρ')
  · obtain ⟨e0, e1, e2, e3, e4, e5, e6, e7, e8, e9⟩ := hagree c
    rw [e0, e1, e2, e3, e4, e5, e6, e7, e8, e9]
    obtain ⟨h0, h1, h4, h5⟩ := Cert.KernelIdeal.PreReal.real_of_pre m hpre c
    have hmsg : Cert.ReferenceIdeal.Terms.message (F := Ideal) (Cert.ReferenceIdeal.Terms.edgeRows (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        = ((Cert.KernelIdeal.Gen.dat1 (F := Ideal) (Cert.KernelIdeal.Gen.V3 m ρ) c).arrAt 9 Cert.KernelIdeal.cfg1.N : Cert.KernelIdeal.S500000x128.Idx → EReal) := by
      funext i
      obtain ⟨R, n, rfl⟩ : ∃ (R : Fin 500000) (n : Fin 128), i = ValueIdx.ix2 R n := ⟨i 0, i 1, ValueIdx.eq_ix2 i⟩
      rw [Cert.ReferenceIdeal.Value.message_apply, Cert.KernelIdeal.Value.msg_value m ρ c R n,
        GinSpec.msgMoment_eq_msgCentred
          (GinSpec.rd2 (Cert.KernelIdeal.Terms.edgeRows (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))
          (GinSpec.rd2T ((m ((c.tc : Thread Cert.KernelIdeal.nD Cert.KernelIdeal.τ).loc Cert.KernelIdeal.main_arg4)) : Cert.KernelIdeal.S160x160.Idx → EReal)) (GinSpec.rd1 ((m ((c.tc : Thread Cert.KernelIdeal.nD Cert.KernelIdeal.τ).loc Cert.KernelIdeal.main_arg5)) : Cert.KernelIdeal.S160.Idx → EReal))
          (GinSpec.rd1 ((m ((c.tc : Thread Cert.KernelIdeal.nD Cert.KernelIdeal.τ).loc Cert.KernelIdeal.main_arg6)) : Cert.KernelIdeal.S160.Idx → EReal)) (GinSpec.rd1 ((m ((c.tc : Thread Cert.KernelIdeal.nD Cert.KernelIdeal.τ).loc Cert.KernelIdeal.main_arg7)) : Cert.KernelIdeal.S160.Idx → EReal))
          (GinSpec.rd2T ((m ((c.tc : Thread Cert.KernelIdeal.nD Cert.KernelIdeal.τ).loc Cert.KernelIdeal.main_arg8)) : Cert.KernelIdeal.S128x160.Idx → EReal)) (GinSpec.rd1 ((m ((c.tc : Thread Cert.KernelIdeal.nD Cert.KernelIdeal.τ).loc Cert.KernelIdeal.main_arg9)) : Cert.KernelIdeal.S128.Idx → EReal))
          (Cert.KernelIdeal.PreReal.edgeRows_real _ _ _ h0 h1) (fun k j => h4 (ValueIdx.ix2 j k)) (fun j => h5 (ValueIdx.ix1 j))]
      rfl
    rw [hmsg]
    rfl
  · rw [(hagree c).2.1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
